-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S64x1024x256 : Shape := ⟨3, ![64, 1024, 256]⟩
abbrev S64 : Shape := ⟨1, ![64]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S64x1024x256 : S_.BroadcastsInDim S64x1024x256 (![] : Fin 0 → Fin S64x1024x256.rank)
  reducesTo_S64x1024x256_S_d0_1_2 : S64x1024x256.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S512x256 .f32) (main_arg1 : FVec F S64x1024x256 .f32) (main_arg2 : IVec S64 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_c_2 : IVec S_ 32 := constantI S_ 32 1#32
  let main_v9 : IVec S64 32 := broadcastInDim S64 ![] bcast_S_S64 main_c_2
  let main_v10 : IVec S64 1 := cmpi .sge main_arg2 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v8 main_v11
  main_v12
-- ==== Kernel.lean ====
abbrev S512x256 : Shape := ⟨2, ![512, 256]⟩
abbrev S64x1024x256 : Shape := ⟨3, ![64, 1024, 256]⟩
abbrev S64 : Shape := ⟨1, ![64]⟩
abbrev S64x512x256 : Shape := ⟨3, ![64, 512, 256]⟩
abbrev S64x512x1024 : Shape := ⟨3, ![64, 512, 1024]⟩
abbrev S2x1024x256 : Shape := ⟨3, ![2, 1024, 256]⟩
abbrev S2x512x256 : Shape := ⟨3, ![2, 512, 256]⟩
abbrev S2x512x1024 : Shape := ⟨3, ![2, 512, 1024]⟩
abbrev S512x1024 : Shape := ⟨2, ![512, 1024]⟩
abbrev S1x1024x256 : Shape := ⟨3, ![1, 1024, 256]⟩
abbrev S1024x256 : Shape := ⟨2, ![1024, 256]⟩
abbrev S1 : Shape := ⟨1, ![1]⟩
abbrev S512 : Shape := ⟨1, ![512]⟩
abbrev S512x1 : Shape := ⟨2, ![512, 1]⟩
abbrev S1x512x1024 : Shape := ⟨3, ![1, 512, 1024]⟩
abbrev S1x512x256 : Shape := ⟨3, ![1, 512, 256]⟩

abbrev nBuf : Space → Nat
  | .hbm => 4
  | .vmem => 7
  | .smem => 1
  | _ => 0

abbrev bufTy : (tb : Table) → Fin (tcTables nBuf tb) → BufTy
  | .hbm, ⟨0, _⟩ => ⟨S512x256, .f32⟩
  | .hbm, ⟨1, _⟩ => ⟨S64x1024x256, .f32⟩
  | .hbm, ⟨2, _⟩ => ⟨S64x512x256, .f32⟩
  | .hbm, ⟨3, _⟩ => ⟨S64x512x1024, .f32⟩
  | .local _ .vmem, ⟨0, _⟩ => ⟨S512x256, .f32⟩
  | .local _ .vmem, ⟨1, _⟩ => ⟨S2x1024x256, .f32⟩
  | .local _ .vmem, ⟨2, _⟩ => ⟨S2x1024x256, .f32⟩
  | .local _ .vmem, ⟨3, _⟩ => ⟨S2x512x256, .f32⟩
  | .local _ .vmem, ⟨4, _⟩ => ⟨S2x512x256, .f32⟩
  | .local _ .vmem, ⟨5, _⟩ => ⟨S2x512x1024, .f32⟩
  | .local _ .vmem, ⟨6, _⟩ => ⟨S2x512x1024, .f32⟩
  | .local _ .smem, ⟨0, _⟩ => ⟨S64, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v7 : BitVec 32 := Scalar.muli arg0 c2_i32
  let v8 : BitVec 32 := Scalar.addi v7 c0_i32
  let v9 : Index := Scalar.indexCast v8
  ![v9.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  iota_S512x1024_d1_w32 : S512x1024.Iotas .tc 32 [1]
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  numel1_S1 : S1.numel = 1
  reduces_S512x1024_S512 : S512x1024.Reduces [1] S512
  shapeCasts_S512_S512x1 : S512.ShapeCasts S512x1
  broadcasts_S512x1_S512x1024 : S512x1.Broadcasts S512x1024
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  broadcasts_S512x1_S512x256 : S512x1.Broadcasts S512x256
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  shapeCasts_S512x256_S1x512x256 : S512x256.ShapeCasts S1x512x256
  inb_S2x1024x256_S1x1024x256_1_0_0 : ∀ a, (![1, 0, 0] : Fin 3 → Nat) a + S1x1024x256.size a ≤ S2x1024x256.size a
  inb_S2x512x1024_S1x512x1024_1_0_0 : ∀ a, (![1, 0, 0] : Fin 3 → Nat) a + S1x512x1024.size a ≤ S2x512x1024.size a
  inb_S2x512x256_S1x512x256_1_0_0 : ∀ a, (![1, 0, 0] : Fin 3 → Nat) a + S1x512x256.size a ≤ S2x512x256.size a
  dot_S512x256_S1024x256_S512x1024_1_1_0_0_n_n_wf : DotDims.WF S512x256 S1024x256 S512x1024 [1] [1] [0] [0] [] []
  dot_S512x1024_S1024x256_S512x256_1_0_0_1_n_n_wf : DotDims.WF S512x1024 S1024x256 S512x256 [1] [0] [0] [1] [] []
  hrank0 : 0 < grid0.rank
  k0_off1_inb : ∀ i : grid0.Coords, ∀ (r : Fin 2), ∀ a, (k0_off1 i (BitVec.ofNat 32 r.val)) a + S1.size a ≤ S64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x256.size a ≤ S64x1024x256.size a
  hwx0_1 : ∀ i : grid0.Coords, EltTy.bits .f32 = 32 ∨ (Rect.block (s := S64x1024x256) S2x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x256.size a ≤ S64x512x256.size a
  hwx0_2 : ∀ i : grid0.Coords, EltTy.bits .f32 = 32 ∨ (Rect.block (s := S64x512x256) S2x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x1024.size a ≤ S64x512x1024.size a
  hwx0_3 : ∀ i : grid0.Coords, EltTy.bits .f32 = 32 ∨ (Rect.block (s := S64x512x1024) S2x512x1024.size (cc0_transform_3 i) (hinb0_3 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev spec0_0 : Pipeline.WinSpec sig grid0.rank :=
  Pipeline.WinSpec.ofSpec (Memref.whole main_arg0) S512x256.size reads0_0 false true 1 stage0_0 sem0_0 nbuf0_0 hstage0_0

abbrev spec0_1 : Pipeline.WinSpec sig grid0.rank :=
  Pipeline.WinSpec.ofSpec (Memref.whole main_arg1) S2x1024x256.size reads0_1 false false 2 stage0_1 sem0_1 nbuf0_1 hstage0_1

abbrev spec0_2 : Pipeline.WinSpec sig grid0.rank :=
  Pipeline.WinSpec.ofSpec (Memref.whole main_v0_0) S2x512x256.size reads0_2 true false 2 stage0_2 sem0_2 nbuf0_2 hstage0_2

abbrev spec0_3 : Pipeline.WinSpec sig grid0.rank :=
  Pipeline.WinSpec.ofSpec (Memref.whole main_v0_1) S2x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S512x256 : Shape := ⟨2, ![512, 256]⟩
abbrev S64x1024x256 : Shape := ⟨3, ![64, 1024, 256]⟩
abbrev S64 : Shape := ⟨1, ![64]⟩
abbrev S512x64x1024 : Shape := ⟨3, ![512, 64, 1024]⟩
abbrev S64x512x1024 : Shape := ⟨3, ![64, 512, 1024]⟩
abbrev S1024 : Shape := ⟨1, ![1024]⟩
abbrev S1x1x1024 : Shape := ⟨3, ![1, 1, 1024]⟩
abbrev S64x1x1 : Shape := ⟨3, ![64, 1, 1]⟩
abbrev S64x1x1024 : Shape := ⟨3, ![64, 1, 1024]⟩
abbrev S_ : Shape := ⟨0, ![]⟩
abbrev S64x512 : Shape := ⟨2, ![64, 512]⟩
abbrev S64x512x1 : Shape := ⟨3, ![64, 512, 1]⟩
abbrev S64x512x256 : Shape := ⟨3, ![64, 512, 256]⟩

abbrev nBuf : Space → Nat
  | .hbm => 31
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S64x1024x256, .f32⟩
  | .hbm, ⟨2, _⟩ => ⟨S64, .i32⟩
  | .hbm, ⟨3, _⟩ => ⟨S512x64x1024, .f32⟩
  | .hbm, ⟨4, _⟩ => ⟨S64x512x1024, .f32⟩
  | .hbm, ⟨5, _⟩ => ⟨S1024, .i32⟩
  | .hbm, ⟨6, _⟩ => ⟨S1x1x1024, .i32⟩
  | .hbm, ⟨7, _⟩ => ⟨S64x1x1, .i32⟩
  | .hbm, ⟨8, _⟩ => ⟨S64x1x1024, .i32⟩
  | .hbm, ⟨9, _⟩ => ⟨S64x1x1024, .i32⟩
  | .hbm, ⟨10, _⟩ => ⟨S64x1x1024, .i1⟩
  | .hbm, ⟨11, _⟩ => ⟨S_, .f32⟩
  | .hbm, ⟨12, _⟩ => ⟨S_, .f32⟩
  | .hbm, ⟨13, _⟩ => ⟨S64x512x1024, .i1⟩
  | .hbm, ⟨14, _⟩ => ⟨S64x512x1024, .f32⟩
  | .hbm, ⟨15, _⟩ => ⟨S64x512x1024, .f32⟩
  | .hbm, ⟨16, _⟩ => ⟨S_, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512x1, .f32⟩
  | .hbm, ⟨22, _⟩ => ⟨S64x512x1024, .f32⟩
  | .hbm, ⟨23, _⟩ => ⟨S64x512x1024, .f32⟩
  | .hbm, ⟨24, _⟩ => ⟨S64x512x1024, .f32⟩
  | .hbm, ⟨25, _⟩ => ⟨S_, .f32⟩
  | .hbm, ⟨26, _⟩ => ⟨S64x512, .f32⟩
  | .hbm, ⟨27, _⟩ => ⟨S64x512x1, .f32⟩
  | .hbm, ⟨28, _⟩ => ⟨S64x512x1024, .f32⟩
  | .hbm, ⟨29, _⟩ => ⟨S64x512x1024, .f32⟩
  | .hbm, ⟨30, _⟩ => ⟨S64x512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S512x64x1024_S64x512x1024_1_0_2 : S512x64x1024.Transposes [1, 0, 2] S64x512x1024
  bcast_S1024_S1x1x1024_2 : S1024.BroadcastsInDim S1x1x1024 (![2] : Fin 1 → Fin S1x1x1024.rank)
  bcast_S64_S64x1x1_0 : S64.BroadcastsInDim S64x1x1 (![0] : Fin 1 → Fin S64x1x1.rank)
  bcast_S1x1x1024_S64x1x1024_0_1_2 : S1x1x1024.BroadcastsInDim S64x1x1024 (![0, 1, 2] : Fin 3 → Fin S64x1x1024.rank)
  bcast_S64x1x1_S64x1x1024_0_1_2 : S64x1x1.BroadcastsInDim S64x1x1024 (![0, 1, 2] : Fin 3 → Fin S64x1x1024.rank)
  bcast_S64x1x1024_S64x512x1024_0_1_2 : S64x1x1024.BroadcastsInDim S64x512x1024 (![0, 1, 2] : Fin 3 → Fin S64x512x1024.rank)
  bcast_S_S64x512x1024 : S_.BroadcastsInDim S64x512x1024 (![] : Fin 0 → Fin S64x512x1024.rank)
  reducesTo_S64x512x1024_S64x512_d2 : S64x512x1024.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x1024_0_1_2 : S64x512x1.BroadcastsInDim S64x512x1024 (![0, 1, 2] : Fin 3 → Fin S64x512x1024.rank)
  dot_S512x256_S64x1024x256_S512x64x1024_1_2_0_01_n_n_wf : DotDims.WF S512x256 S64x1024x256 S512x64x1024 [1] [2] [0] [0, 1] [] []
  dot_S64x512x1024_S64x1024x256_S64x512x256_2_1_1_2_0_0_wf : DotDims.WF S64x512x1024 S64x1024x256 S64x512x256 [2] [1] [1] [2] [0] [0]

variable [Facts₀]

def dot_S512x256_S64x1024x256_S512x64x1024_1_2_0_01_n_n : DotDims S512x256 S64x1024x256 S512x64x1024 where
  lhsContracting := [1]
  rhsContracting := [2]
  lhsNonContracting := [0]
  rhsNonContracting := [0, 1]
  lhsBatch := []
  rhsBatch := []
  wf := dot_S512x256_S64x1024x256_S512x64x1024_1_2_0_01_n_n_wf
def dot_S64x512x1024_S64x1024x256_S64x512x256_2_1_1_2_0_0 : DotDims S64x512x1024 S64x1024x256 S64x512x256 where
  lhsContracting := [2]
  rhsContracting := [1]
  lhsNonContracting := [1]
  rhsNonContracting := [2]
  lhsBatch := [0]
  rhsBatch := [0]
  wf := dot_S64x512x1024_S64x1024x256_S64x512x256_2_1_1_2_0_0_wf

class Facts : Prop extends Facts₀ where

variable [Facts]
-- ==== Proof.PreFacts.lean ====
/-
  The certificate's precondition, read back as plain facts. The printed predicate says three things, each under
  a reduction by `and` over every index and the three and'ed into one `i1` scalar: every entry of the first
  float input has absolute value below +∞, every entry of the second likewise, and every word of the integer
  input is at least 1 as a signed 32-bit word. On the extended reals `|x| = max x (-x)`, and `max x (-x) < ⊤`
  leaves exactly the reals: at `⊤` the maximum is `⊤`, at `⊥` it is `-⊥ = ⊤`.
-/
import proofs.«414325_j37056977829929_3_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.PreFacts

open Idealize.ShloMosaic Idealize.ShloMosaic.ValueIdx

/-- The scalar shape has one index. -/
instance : Subsingleton Cert.Pre_finite_inputs.S_.Idx := ⟨fun a b => funext fun d => d.elim0⟩

/-- The pattern 0x7F800000 (exponent all ones, fraction zero, sign clear) is +∞. -/
theorem ofBits_inf : Ideal.ofBits .f32 0x7F800000#32 = (⊤ : EReal) := by
  simp [Ideal.ofBits, Ideal.ieee]

/-- An extended real whose absolute value `max x (-x)` compares below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

variable [Cert.Pre_finite_inputs.Facts]

/-- The predicate being 1 says each of its three reductions by `and` is 1: the scalar's one index read, the
    printed chain unfolded, and a conjunction of `i1` words being 1 split into its parts. -/
theorem split (a0 : FVec Ideal Cert.Pre_finite_inputs.S512x256 .f32) (a1 : FVec Ideal Cert.Pre_finite_inputs.S64x1024x256 .f32)
    (a2 : IVec Cert.Pre_finite_inputs.S64 32)
    (h : Cert.Pre_finite_inputs.fn (F := Ideal) a0 a1 a2 = fun _ => 1#1) :
    (∀ i, Ideal.cmp .olt (max (a0 i) (-(a0 i))) (Ideal.ofBits .f32 0x7F800000#32) = 1#1) ∧
    (∀ i, Ideal.cmp .olt (max (a1 i) (-(a1 i))) (Ideal.ofBits .f32 0x7F800000#32) = 1#1) ∧
    (∀ i, IntOp.cmpi .sge (a2 i) 1#32 = 1#1) := by
  have e := congrFun h ix0
  dsimp only [Cert.Pre_finite_inputs.fn] at e
  simp only [andi, IntOp.andi_eq_one] at e
  obtain ⟨⟨e0, e1⟩, e2⟩ := e
  exact ⟨fun i => Host.reduce_andi_all _ _ _ _ _ e0 i, fun i => Host.reduce_andi_all _ _ _ _ _ e1 i,
    fun i => Host.reduce_andi_all _ _ _ _ _ e2 i⟩

/-- Every entry of the first float input is a real. -/
theorem finite_term (a0 : FVec Ideal Cert.Pre_finite_inputs.S512x256 .f32) (a1 : FVec Ideal Cert.Pre_finite_inputs.S64x1024x256 .f32)
    (a2 : IVec Cert.Pre_finite_inputs.S64 32)
    (h : Cert.Pre_finite_inputs.fn (F := Ideal) a0 a1 a2 = fun _ => 1#1) : ∀ i, ∃ r : ℝ, a0 i = (r : EReal) :=
  fun i => real_of_abs_lt_inf _ ((split a0 a1 a2 h).1 i)

/-- Every entry of the second float input is a real. -/
theorem finite_stack (a0 : FVec Ideal Cert.Pre_finite_inputs.S512x256 .f32) (a1 : FVec Ideal Cert.Pre_finite_inputs.S64x1024x256 .f32)
    (a2 : IVec Cert.Pre_finite_inputs.S64 32)
    (h : Cert.Pre_finite_inputs.fn (F := Ideal) a0 a1 a2 = fun _ => 1#1) : ∀ i, ∃ r : ℝ, a1 i = (r : EReal) :=
  fun i => real_of_abs_lt_inf _ ((split a0 a1 a2 h).2.1 i)

/-- Every word of the integer input is at least 1, signed. -/
theorem len_ge_one (a0 : FVec Ideal Cert.Pre_finite_inputs.S512x256 .f32) (a1 : FVec Ideal Cert.Pre_finite_inputs.S64x1024x256 .f32)
    (a2 : IVec Cert.Pre_finite_inputs.S64 32)
    (h : Cert.Pre_finite_inputs.fn (F := Ideal) a0 a1 a2 = fun _ => 1#1) :
    ∀ p : Fin 64, IntOp.cmpi .sge (a2 (ix1 p)) 1#32 = 1#1 :=
  fun p => (split a0 a1 a2 h).2.2 (ix1 p)

end Cert.PreFacts

end
-- ==== Proof.Spec.lean ====
/-
  The mathematics both programs compute, for ONE protein: masked softmax attention of the 512 term rows over the
  protein's 1024 positions, and the attention-weighted sum of the protein's rows.

  For a term matrix `term` (512 × 256), one protein's matrix `pm` (1024 × 256) and its length word `len`:
    score t l   = ∑ h, term[t,h] · pm[l,h]
    position l is MASKED when l ≥ len (signed 32-bit compare), and a masked score is −∞
    rowMax t    = max over l of the masked scores (from −∞)
  The reference normalises the exponentials by a quotient,
    attn[t,l] = exp(x[t,l] − rowMax t) / Z t,   Z t = 0 + ∑ l exp(x[t,l] − rowMax t),   out[t,h] = ∑ l attn[t,l] · pm[l,h];
  the kernel zeroes the masked exponentials explicitly, takes ONE reciprocal per row and multiplies by it, after the second
  product for `out`:
    e[t,l] = 0 where masked, else exp(x[t,l] − rowMax t);  r t = 1 / ∑ l e[t,l];  attn = e · r;  out[t,h] = (∑ l e[t,l] · pm[l,h]) · r t.
  These are definitions only; that the two agree (for finite entries and a length of at least one) is a separate module.
-/
import Idealize.ShloMosaic.PureOps.Ideal
import Idealize.ShloMosaic.Lib.ValueIdx

noncomputable section

namespace Cert.Attn

open Idealize.ShloMosaic Idealize.ShloMosaic.ValueIdx

/-- The term matrix's, one protein's matrix's, the protein stack's and the length vector's index sets. -/
abbrev TermS : Shape := ⟨2, ![512, 256]⟩
abbrev ProtS : Shape := ⟨2, ![1024, 256]⟩
abbrev StackS : Shape := ⟨3, ![64, 1024, 256]⟩
abbrev LenS : Shape := ⟨1, ![64]⟩
abbrev AttnS : Shape := ⟨3, ![64, 512, 1024]⟩
abbrev OutS : Shape := ⟨3, ![64, 512, 256]⟩

/-- Protein `p`'s matrix out of the stack. -/
def slab (stack : StackS.Idx → EReal) (p : Fin 64) : ProtS.Idx → EReal := fun j => stack (ix3 p (j 0) (j 1))

/-- The raw score of term row `t` against position `l`: the inner product over the 256 hidden coordinates. -/
def score (term : TermS.Idx → EReal) (pm : ProtS.Idx → EReal) (t : Fin 512) (l : Fin 1024) : EReal :=
  ∑ h : Fin 256, term (ix2 t h) * pm (ix2 l h)

/-- The mask bit of position `l` for a protein of length word `len`: set when `l ≥ len`, compared as signed words. -/
def mbit (len : BitVec 32) (l : Fin 1024) : BitVec 1 := IntOp.cmpi .sge (BitVec.ofNat 32 l.val) len

/-- The masked score: −∞ at a masked position. -/
def xs (term : TermS.Idx → EReal) (pm : ProtS.Idx → EReal) (len : BitVec 32) (t : Fin 512) (l : Fin 1024) : EReal :=
  Scalar.select (mbit len l) (⊥ : EReal) (score term pm t l)

/-- A row's maximum of the masked scores, folded from −∞. -/
def rowMax (term : TermS.Idx → EReal) (pm : ProtS.Idx → EReal) (len : BitVec 32) (t : Fin 512) : EReal :=
  (Finset.univ : Finset (Fin 1024)).fold max (⊥ : EReal) (fun l => xs term pm len t l)

/-! ### The reference's row -/

def eR (term : TermS.Idx → EReal) (pm : ProtS.Idx → EReal) (len : BitVec 32) (t : Fin 512) (l : Fin 1024) : EReal :=
  Ideal.exp (xs term pm len t l - rowMax term pm len t)

def zR (term : TermS.Idx → EReal) (pm : ProtS.Idx → EReal) (len : BitVec 32) (t : Fin 512) : EReal :=
  0 + ∑ l : Fin 1024, eR term pm len t l

def attnR (term : TermS.Idx → EReal) (pm : ProtS.Idx → EReal) (len : BitVec 32) (t : Fin 512) (l : Fin 1024) : EReal :=
  Ideal.div (eR term pm len t l) (zR term pm len t)

def outR (term : TermS.Idx → EReal) (pm : ProtS.Idx → EReal) (len : BitVec 32) (t : Fin 512) (h : Fin 256) : EReal :=
  ∑ l : Fin 1024, attnR term pm len t l * pm (ix2 l h)

/-! ### The kernel's row -/

def eK (term : TermS.Idx → EReal) (pm : ProtS.Idx → EReal) (len : BitVec 32) (t : Fin 512) (l : Fin 1024) : EReal :=
  Scalar.select (mbit len l) (0 : EReal) (Ideal.exp (xs term pm len t l - rowMax term pm len t))

def zK (term : TermS.Idx → EReal) (pm : ProtS.Idx → EReal) (len : BitVec 32) (t : Fin 512) : EReal :=
  ∑ l : Fin 1024, eK term pm len t l

def rK (term : TermS.Idx → EReal) (pm : ProtS.Idx → EReal) (len : BitVec 32) (t : Fin 512) : EReal :=
  Ideal.div 1 (zK term pm len t)

def attnK (term : TermS.Idx → EReal) (pm : ProtS.Idx → EReal) (len : BitVec 32) (t : Fin 512) (l : Fin 1024) : EReal :=
  eK term pm len t l * rK term pm len t

def outK (term : TermS.Idx → EReal) (pm : ProtS.Idx → EReal) (len : BitVec 32) (t : Fin 512) (h : Fin 256) : EReal :=
  (∑ l : Fin 1024, eK term pm len t l * pm (ix2 l h)) * rK term pm len t

/-! ### The whole arrays, in the reference's form -/

/-- The attention array: protein `p`'s row `t` at position `l`. -/
def attnArr (term : TermS.Idx → EReal) (stack : StackS.Idx → EReal) (lens : LenS.Idx → BitVec 32) : AttnS.Idx → EReal :=
  fun j => attnR term (slab stack (j 0)) (lens (ix1 (j 0))) (j 1) (j 2)

/-- The output array: protein `p`'s row `t` at hidden coordinate `h`. -/
def outArr (term : TermS.Idx → EReal) (stack : StackS.Idx → EReal) (lens : LenS.Idx → BitVec 32) : OutS.Idx → EReal :=
  fun j => outR term (slab stack (j 0)) (lens (ix1 (j 0))) (j 1) (j 2)

end Cert.Attn

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Softmax.lean ====
/-
  The two rows agree: the kernel's masked softmax attention is the reference's.

  Under finite entries and a length word of at least one, every raw score is a real (a finite sum of products of reals),
  position 0 is never masked, and a masked score is −∞; so a row's maximum, folded from −∞ over values that are reals or
  −∞ with at least one real among them, is a real m. Then x − m is a real or −∞, its exponential is a non-negative
  real, and it is 0 at the masked positions (−∞ − m = −∞, exp(−∞) = 0): the kernel's explicit zeroing changes
  nothing. The normaliser is a sum of non-negative reals with a positive term at position 0, hence a positive real Z.
  Division by a positive real is multiplication by its reciprocal, so e / Z = e · (1 / Z), and for the output
  (∑ e_l · p_l) · (1/Z) = ∑ (e_l · (1/Z)) · p_l is an identity of real numbers.
-/
import proofs.«414325_j37056977829929_3_alg».proof.Proof.Spec
import proofs.«414325_j37056977829929_3_alg».proof.Proof.LibSums
import Idealize.ShloMosaic.Lib.StableHlo.Predicate
import Mathlib.Data.EReal.Operations
import Mathlib.Data.EReal.Inv
import Mathlib.Data.Finset.Fold
import Mathlib.Analysis.Complex.Exponential

noncomputable section

namespace Cert.Attn

open Idealize.ShloMosaic Idealize.ShloMosaic.ValueIdx
open scoped BigOperators

/-! ### Scores and the mask -/

/-- Every raw score is a real: a finite sum of products of reals. -/
theorem score_real (term : TermS.Idx → EReal) (pm : ProtS.Idx → EReal)
    (hterm : ∀ i, ∃ r : ℝ, term i = (r : EReal)) (hpm : ∀ i, ∃ r : ℝ, pm i = (r : EReal))
    (t : Fin 512) (l : Fin 1024) : ∃ r : ℝ, score term pm t l = (r : EReal) := by
  choose a ha using hterm
  choose b hb using hpm
  refine ⟨∑ h : Fin 256, a (ix2 t h) * b (ix2 l h), ?_⟩
  unfold score
  rw [← LibSums.sum_coe]
  refine Finset.sum_congr rfl fun h _ => ?_
  rw [ha, hb, EReal.coe_mul]

/-- A length word of at least one (as a signed word) leaves position 0 unmasked. -/
theorem mbit_zero (len : BitVec 32) (hlen : IntOp.cmpi .sge len 1#32 = 1#1) : mbit len 0 ≠ 1#1 := by
  intro h0
  have h1 : (1#32).sle len = true := (StableHlo.Predicate.ofBool_eq_one_iff _).1 hlen
  have h2 : len.sle (BitVec.ofNat 32 (0 : Fin 1024).val) = true := (StableHlo.Predicate.ofBool_eq_one_iff _).1 h0
  rw [BitVec.sle, decide_eq_true_eq] at h1 h2
  have e1 : (1#32).toInt = 1 := by decide
  have e0 : (BitVec.ofNat 32 (0 : Fin 1024).val).toInt = 0 := by decide
  omega

/-- A masked score is −∞ where the mask bit is set. -/
theorem xs_masked (term : TermS.Idx → EReal) (pm : ProtS.Idx → EReal) (len : BitVec 32) (t : Fin 512) (l : Fin 1024)
    (h : mbit len l = 1#1) : xs term pm len t l = ⊥ := by
  unfold xs; rw [h, select_one]

/-- A masked score is the raw score where the mask bit is clear. -/
theorem xs_unmasked (term : TermS.Idx → EReal) (pm : ProtS.Idx → EReal) (len : BitVec 32) (t : Fin 512) (l : Fin 1024)
    (h : mbit len l ≠ 1#1) : xs term pm len t l = score term pm t l := by
  unfold xs; rw [eq_zero_of_ne_one h, select_zero]

/-- No masked score is +∞. -/
theorem xs_lt_top (term : TermS.Idx → EReal) (pm : ProtS.Idx → EReal) (len : BitVec 32)
    (hterm : ∀ i, ∃ r : ℝ, term i = (r : EReal)) (hpm : ∀ i, ∃ r : ℝ, pm i = (r : EReal))
    (t : Fin 512) (l : Fin 1024) : xs term pm len t l < ⊤ := by
  by_cases h : mbit len l = 1#1
  · rw [xs_masked term pm len t l h]; exact bot_lt_top
  · obtain ⟨r, hr⟩ := score_real term pm hterm hpm t l
    rw [xs_unmasked term pm len t l h, hr]; exact EReal.coe_lt_top r

/-! ### The row maximum -/

/-- The row maximum is a real: it is below +∞ because every masked score is, and above −∞ because the score at
    position 0 is a real. -/
theorem rowMax_real (term : TermS.Idx → EReal) (pm : ProtS.Idx → EReal) (len : BitVec 32)
    (hterm : ∀ i, ∃ r : ℝ, term i = (r : EReal)) (hpm : ∀ i, ∃ r : ℝ, pm i = (r : EReal))
    (hlen : IntOp.cmpi .sge len 1#32 = 1#1) (t : Fin 512) : ∃ m : ℝ, rowMax term pm len t = (m : EReal) := by
  have hlt : rowMax term pm len t < ⊤ := by
    unfold rowMax
    rw [Finset.fold_max_lt]
    exact ⟨bot_lt_top, fun l _ => xs_lt_top term pm len hterm hpm t l⟩
  have hgt : ⊥ < rowMax term pm len t := by
    unfold rowMax
    rw [Finset.lt_fold_max]
    refine Or.inr ⟨0, Finset.mem_univ _, ?_⟩
    obtain ⟨r, hr⟩ := score_real term pm hterm hpm t 0
    rw [xs_unmasked term pm len t 0 (mbit_zero len hlen), hr]
    exact EReal.bot_lt_coe r
  exact ⟨(rowMax term pm len t).toReal, (EReal.coe_toReal (ne_of_lt hlt) (ne_of_gt hgt)).symm⟩

/-! ### The exponentials -/

/-- The kernel's explicit zero at a masked position is what the reference's exponential gives there:
    −∞ − m = −∞ and exp(−∞) = 0. -/
theorem eK_eq_eR (term : TermS.Idx → EReal) (pm : ProtS.Idx → EReal) (len : BitVec 32) (t : Fin 512) (l : Fin 1024) :
    eK term pm len t l = eR term pm len t l := by
  unfold eK eR
  by_cases h : mbit len l = 1#1
  · rw [h, select_one, xs_masked term pm len t l h, EReal.bot_sub, Ideal.exp_bot]
  · rw [eq_zero_of_ne_one h, select_zero]

/-- Every exponential of the row is a non-negative real, and a positive one where the position is not masked. -/
theorem eR_real (term : TermS.Idx → EReal) (pm : ProtS.Idx → EReal) (len : BitVec 32)
    (hterm : ∀ i, ∃ r : ℝ, term i = (r : EReal)) (hpm : ∀ i, ∃ r : ℝ, pm i = (r : EReal))
    (hlen : IntOp.cmpi .sge len 1#32 = 1#1) (t : Fin 512) (l : Fin 1024) :
    ∃ r : ℝ, 0 ≤ r ∧ (mbit len l ≠ 1#1 → 0 < r) ∧ eR term pm len t l = (r : EReal) := by
  obtain ⟨m, hm⟩ := rowMax_real term pm len hterm hpm hlen t
  unfold eR
  by_cases h : mbit len l = 1#1
  · refine ⟨0, le_refl 0, fun h' => absurd h h', ?_⟩
    rw [xs_masked term pm len t l h, EReal.bot_sub, Ideal.exp_bot, EReal.coe_zero]
  · obtain ⟨x, hx⟩ := score_real term pm hterm hpm t l
    refine ⟨Real.exp (x - m), le_of_lt (Real.exp_pos _), fun _ => Real.exp_pos _, ?_⟩
    rw [xs_unmasked term pm len t l h, hx, hm, ← EReal.coe_sub, Ideal.exp_coe]

/-! ### The row, in real numbers -/

/-- The whole row in real numbers: non-negative reals e l with positive sum Z, which are the exponentials of both
    programs, Z being the normaliser of both. -/
theorem row_real (term : TermS.Idx → EReal) (pm : ProtS.Idx → EReal) (len : BitVec 32)
    (hterm : ∀ i, ∃ r : ℝ, term i = (r : EReal)) (hpm : ∀ i, ∃ r : ℝ, pm i = (r : EReal))
    (hlen : IntOp.cmpi .sge len 1#32 = 1#1) (t : Fin 512) :
    ∃ (e : Fin 1024 → ℝ) (Z : ℝ), 0 < Z ∧ (∀ l, eR term pm len t l = (e l : EReal)) ∧
      (∀ l, eK term pm len t l = (e l : EReal)) ∧ zR term pm len t = (Z : EReal) ∧ zK term pm len t = (Z : EReal) := by
  choose e he0 hepos he using eR_real term pm len hterm hpm hlen t
  have hZ : 0 < ∑ l : Fin 1024, e l :=
    Finset.sum_pos' (fun l _ => he0 l) ⟨0, Finset.mem_univ _, hepos 0 (mbit_zero len hlen)⟩
  have hsum : ∑ l : Fin 1024, eR term pm len t l = ((∑ l : Fin 1024, e l : ℝ) : EReal) := by
    rw [← LibSums.sum_coe]
    exact Finset.sum_congr rfl fun l _ => he l
  refine ⟨e, ∑ l : Fin 1024, e l, hZ, he, fun l => (eK_eq_eR term pm len t l).trans (he l), ?_, ?_⟩
  · unfold zR; rw [zero_add, hsum]
  · unfold zK
    rw [← hsum]
    exact Finset.sum_congr rfl fun l _ => eK_eq_eR term pm len t l

/-- The reciprocal of a positive real, as the model's quotient 1 / Z. -/
theorem div_one_pos {Z : ℝ} (hZ : 0 < Z) : Ideal.div 1 (Z : EReal) = ((1 / Z : ℝ) : EReal) := by
  rw [Ideal.div_coe (ne_of_gt hZ), one_mul]

/-! ### The two results -/

/-- The attention weights agree: e · (1 / Z) = e / Z for a positive real Z. -/
theorem attnK_eq_attnR (term : TermS.Idx → EReal) (pm : ProtS.Idx → EReal) (len : BitVec 32)
    (hterm : ∀ i, ∃ r : ℝ, term i = (r : EReal)) (hpm : ∀ i, ∃ r : ℝ, pm i = (r : EReal))
    (hlen : IntOp.cmpi .sge len 1#32 = 1#1) (t : Fin 512) (l : Fin 1024) :
    attnK term pm len t l = attnR term pm len t l := by
  obtain ⟨e, Z, hZ, heR, heK, hzR, hzK⟩ := row_real term pm len hterm hpm hlen t
  unfold attnK attnR rK
  rw [heK, heR, hzK, hzR, div_one_pos hZ, Ideal.div_coe (ne_of_gt hZ)]

/-- The outputs agree: the reciprocal of the normaliser, a real, moves inside the finite sum of real products. -/
theorem outK_eq_outR (term : TermS.Idx → EReal) (pm : ProtS.Idx → EReal) (len : BitVec 32)
    (hterm : ∀ i, ∃ r : ℝ, term i = (r : EReal)) (hpm : ∀ i, ∃ r : ℝ, pm i = (r : EReal))
    (hlen : IntOp.cmpi .sge len 1#32 = 1#1) (t : Fin 512) (h : Fin 256) :
    outK term pm len t h = outR term pm len t h := by
  obtain ⟨e, Z, hZ, heR, heK, hzR, hzK⟩ := row_real term pm len hterm hpm hlen t
  choose b hb using hpm
  have hK : ∑ l : Fin 1024, eK term pm len t l * pm (ix2 l h) = ((∑ l : Fin 1024, e l * b (ix2 l h) : ℝ) : EReal) := by
    rw [← LibSums.sum_coe]
    refine Finset.sum_congr rfl fun l _ => ?_
    rw [heK, hb, EReal.coe_mul]
  have hR : ∑ l : Fin 1024, attnR term pm len t l * pm (ix2 l h)
      = ((∑ l : Fin 1024, e l * (1 / Z) * b (ix2 l h) : ℝ) : EReal) := by
    rw [← LibSums.sum_coe]
    refine Finset.sum_congr rfl fun l _ => ?_
    unfold attnR
    rw [heR, hzR, Ideal.div_coe (ne_of_gt hZ), hb, EReal.coe_mul, EReal.coe_mul]
  unfold outK outR rK
  rw [hK, hR, hzK, div_one_pos hZ, ← EReal.coe_mul, Finset.sum_mul]
  congr 1
  refine Finset.sum_congr rfl fun l _ => ?_
  ring

end Cert.Attn

end
-- ==== Proof.Arrays.lean ====
/-
  The whole arrays in the kernel's form, and that they are the reference's.

  The kernel-form attention and output arrays apply the kernel's row (masked exponentials zeroed, one reciprocal per row)
  to each protein's matrix and length word; the reference-form arrays apply the reference's row. When every entry of the
  term matrix and of the protein stack is a real and every length word is at least one, the two rows agree at every index,
  so the arrays are equal.
-/
import proofs.«414325_j37056977829929_3_alg».proof.Proof.Softmax

noncomputable section

namespace Cert.Attn

open Idealize.ShloMosaic Idealize.ShloMosaic.ValueIdx

/-- The attention array in the kernel's form. -/
def attnArrK (term : TermS.Idx → EReal) (stack : StackS.Idx → EReal) (lens : LenS.Idx → BitVec 32) : AttnS.Idx → EReal :=
  fun j => attnK term (slab stack (j 0)) (lens (ix1 (j 0))) (j 1) (j 2)

/-- The output array in the kernel's form. -/
def outArrK (term : TermS.Idx → EReal) (stack : StackS.Idx → EReal) (lens : LenS.Idx → BitVec 32) : OutS.Idx → EReal :=
  fun j => outK term (slab stack (j 0)) (lens (ix1 (j 0))) (j 1) (j 2)

/-- A slab of a stack of reals is a matrix of reals. -/
theorem slab_real (stack : StackS.Idx → EReal) (hstack : ∀ i, ∃ r : ℝ, stack i = (r : EReal)) (p : Fin 64) :
    ∀ i, ∃ r : ℝ, slab stack p i = (r : EReal) := fun i => hstack _

theorem attnArrK_eq (term : TermS.Idx → EReal) (stack : StackS.Idx → EReal) (lens : LenS.Idx → BitVec 32)
    (hterm : ∀ i, ∃ r : ℝ, term i = (r : EReal)) (hstack : ∀ i, ∃ r : ℝ, stack i = (r : EReal))
    (hlens : ∀ p : Fin 64, IntOp.cmpi .sge (lens (ix1 p)) 1#32 = 1#1) :
    attnArrK term stack lens = attnArr term stack lens :=
  funext fun j => attnK_eq_attnR term (slab stack (j 0)) (lens (ix1 (j 0))) hterm (slab_real stack hstack (j 0)) (hlens (j 0)) (j 1) (j 2)

theorem outArrK_eq (term : TermS.Idx → EReal) (stack : StackS.Idx → EReal) (lens : LenS.Idx → BitVec 32)
    (hterm : ∀ i, ∃ r : ℝ, term i = (r : EReal)) (hstack : ∀ i, ∃ r : ℝ, stack i = (r : EReal))
    (hlens : ∀ p : Fin 64, IntOp.cmpi .sge (lens (ix1 p)) 1#32 = 1#1) :
    outArrK term stack lens = outArr term stack lens :=
  funext fun j => outK_eq_outR term (slab stack (j 0)) (lens (ix1 (j 0))) hterm (slab_real stack hstack (j 0)) (hlens (j 0)) (j 1) (j 2)

end Cert.Attn

end
-- ==== Proof.RefRead.lean ====
/-
  The reference program's two results, read index by index, are the specification's arrays.

  The reference computes, for protein p, term row t and position l,
    x[p,t,l]    = −∞ where l ≥ len p (signed), else ∑ h, term[t,h] · stack[p,l,h]
    m[p,t]      = max (−∞) (the maximum over l of x[p,t,l], folded from −∞)
    e[p,t,l]    = exp (x[p,t,l] − m[p,t])
    Z[p,t]      = 0 + ∑ l, e[p,t,l]
    attn[p,t,l] = e[p,t,l] / Z[p,t]
    out[p,t,h]  = ∑ l, attn[p,t,l] · stack[p,l,h].
  Each stage below is read at an index written by its coordinates; the layout operations between the stages
  (transpose, broadcasts) only move coordinates, and each such move is an equation between index functions.
-/
import proofs.«414325_j37056977829929_3_alg».proof.Proof.Gen.ReferenceIdeal.Read
import proofs.«414325_j37056977829929_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.Attn
open Idealize.ShloMosaic Idealize.ShloMosaic.ValueIdx

/-- The f32 pattern of −∞ is the bottom of the extended reals. -/
theorem ofBits_negInf_f32 : Ideal.ofBits .f32 0xFF800000#32 = (⊥ : EReal) := by
  simp [Ideal.ofBits, Ideal.ieee]

/-! ### The coordinate moves of the layout operations -/

section Indices

variable (p : Fin 64) (t : Fin 512) (l : Fin 1024)

/-- The mask's position word is read at coordinate l. -/
theorem iota_coord :
    ((idx_main_v3 (idx_main_v5 (idx_main_call0_v1 (ix3 p t l)))) 0).val = l.val := rfl

/-- The length word is read at protein p. -/
theorem len_coord : idx_main_v4 (idx_main_v6 (idx_main_call0_v1 (ix3 p t l))) = ix1 p :=
  funext fun a => Fin.ext (by match a with | ⟨0, _⟩ => rfl)

/-- The score's left factor is the term matrix at (t, h). -/
theorem score_lhs (h : Fin 256) : lidx_main_v0 (idx_main_v1 (ix3 p t l)) h = ix2 t h :=
  funext fun a => Fin.ext (by match a with | ⟨0, _⟩ => rfl | ⟨1, _⟩ => rfl)

/-- The score's right factor is the stack at (p, l, h). -/
theorem score_rhs (h : Fin 256) : ridx_main_v0 (idx_main_v1 (ix3 p t l)) h = ix3 p l h :=
  funext fun a => Fin.ext (by match a with | ⟨0, _⟩ => rfl | ⟨1, _⟩ => rfl | ⟨2, _⟩ => rfl)

/-- A row's maximum, broadcast along the positions, is read at (p, t). -/
theorem row_coord : idx_main_v12 (idx_main_v13 (ix3 p t l)) = ix2 p t :=
  funext fun a => Fin.ext (by match a with | ⟨0, _⟩ => rfl | ⟨1, _⟩ => rfl)

/-- A row's normaliser, broadcast along the positions, is read at (p, t). -/
theorem norm_coord : idx_main_v17 (idx_main_v18 (ix3 p t l)) = ix2 p t :=
  funext fun a => Fin.ext (by match a with | ⟨0, _⟩ => rfl | ⟨1, _⟩ => rfl)

/-- The normaliser's summand k is position k of row (p, t). -/
theorem sum_coord (k : Fin 1024) : idx_main_v16 (ix2 p t) k = ix3 p t k :=
  funext fun a => Fin.ext (by match a with | ⟨0, _⟩ => rfl | ⟨1, _⟩ => rfl | ⟨2, _⟩ => rfl)

/-- The output's left factor is the attention at (p, t, k). -/
theorem out_lhs (h : Fin 256) (k : Fin 1024) : lidx_main_v20 (ix3 p t h) k = ix3 p t k :=
  funext fun a => Fin.ext (by match a with | ⟨0, _⟩ => rfl | ⟨1, _⟩ => rfl | ⟨2, _⟩ => rfl)

/-- The output's right factor is the stack at (p, k, h). -/
theorem out_rhs (h : Fin 256) (k : Fin 1024) : ridx_main_v20 (ix3 p t h) k = ix3 p k h :=
  funext fun a => Fin.ext (by match a with | ⟨0, _⟩ => rfl | ⟨1, _⟩ => rfl | ⟨2, _⟩ => rfl)

end Indices

/-! ### The stages -/

section Stages

variable (x0 : (⟨S512x256, .f32⟩ : BufTy).Contents (Elt Ideal))
  (x1 : (⟨S64x1024x256, .f32⟩ : BufTy).Contents (Elt Ideal))
  (x2 : (⟨S64, .i32⟩ : BufTy).Contents (Elt Ideal))

/-- The masked score. -/
theorem xs_eq (p : Fin 64) (t : Fin 512) (l : Fin 1024) :
    val_main_v8 (F := Ideal) x0 x1 x2 (ix3 p t l) = xs x0 (slab x1 p) (x2 (ix1 p)) t l := by
  rw [val_main_v8_apply, val_main_call0_v1_apply, val_main_v7_apply, val_main_v5_apply, val_main_v3_apply,
    val_main_v2_apply, val_main_v6_apply, val_main_v4_apply, val_main_call0_v2_apply, val_main_call0_v0_apply,
    val_main_cst_apply, val_main_v1_apply, val_main_v0_apply]
  simp only [iota_coord, len_coord, score_lhs, score_rhs, Ideal.ofBits_def, ofBits_negInf_f32]
  rfl

/-- The shape fact the one-axis reading of the maximum takes, at the literal shapes. -/
theorem reduces_rows : S64x512x1024.Reduces [2] S64x512 := by decide

/-- Row (p, t) with position k inserted on the reduced axis is the index (p, t, k). -/
theorem lift_coord (p : Fin 64) (t : Fin 512) (k : Fin 1024) : reduces_rows.lift (ix2 p t) k = ix3 p t k :=
  funext fun a => Fin.ext (by match a with | ⟨0, _⟩ => rfl | ⟨1, _⟩ => rfl | ⟨2, _⟩ => rfl)

/-- The reduction over the positions is the fold of max from −∞ over the row's masked scores. -/
theorem fold_eq (p : Fin 64) (t : Fin 512) :
    val_main_v9 (F := Ideal) x0 x1 x2 (ix2 p t) = rowMax x0 (slab x1 p) (x2 (ix1 p)) t := by
  unfold val_main_v9
  rw [Host.reduce_eq_fold_single (FloatOps.maximumf (F := Ideal) (φ := .f32)) _ _
    reducesTo_S64x512x1024_S64x512_d2 reduces_rows h_S_ (ix2 p t)]
  rw [val_main_cst_0_apply, Ideal.ofBits_def, ofBits_negInf_f32]
  unfold rowMax
  refine Finset.fold_congr fun k _ => ?_
  exact (congrArg (val_main_v8 (F := Ideal) x0 x1 x2) (lift_coord p t k)).trans (xs_eq x0 x1 x2 p t k)

/-- The row maximum: the maximum with −∞ changes nothing. -/
theorem rowMax_eq (p : Fin 64) (t : Fin 512) :
    val_main_v11 (F := Ideal) x0 x1 x2 (ix2 p t) = rowMax x0 (slab x1 p) (x2 (ix1 p)) t := by
  rw [val_main_v11_apply, val_main_v10_apply, val_main_cst_1_apply, fold_eq, Ideal.ofBits_def, ofBits_negInf_f32,
    Ideal.maximumf_def]
  exact max_bot_left _

/-- The exponential of the masked score less the row maximum. -/
theorem eR_eq (p : Fin 64) (t : Fin 512) (l : Fin 1024) :
    val_main_v15 (F := Ideal) x0 x1 x2 (ix3 p t l) = eR x0 (slab x1 p) (x2 (ix1 p)) t l := by
  rw [val_main_v15_apply, val_main_v14_apply, val_main_v13_apply, val_main_v12_apply, row_coord, xs_eq, rowMax_eq,
    Ideal.subf_def, Ideal.hostUnary_exp_def]
  rfl

/-- The normaliser: zero plus the row's sum of exponentials. -/
theorem zR_eq (p : Fin 64) (t : Fin 512) :
    val_main_v16 (F := Ideal) x0 x1 x2 (ix2 p t) = zR x0 (slab x1 p) (x2 (ix1 p)) t := by
  rw [val_main_v16_apply, val_main_cst_2_apply, Ideal.ofBits_def, Ideal.ofBits_zero_f32]
  unfold zR
  refine congrArg (0 + ·) (Finset.sum_congr rfl fun k _ => ?_)
  rw [sum_coord, eR_eq]

/-- The attention: the exponential over the normaliser. -/
theorem attnR_eq (p : Fin 64) (t : Fin 512) (l : Fin 1024) :
    val_main_v19 (F := Ideal) x0 x1 x2 (ix3 p t l) = attnR x0 (slab x1 p) (x2 (ix1 p)) t l := by
  rw [val_main_v19_apply, val_main_v18_apply, val_main_v17_apply, norm_coord, eR_eq, zR_eq, Ideal.hostDivf_def]
  rfl

/-- The output: the attention-weighted sum of the protein's rows. -/
theorem outR_eq (p : Fin 64) (t : Fin 512) (h : Fin 256) :
    val_main_v20 (F := Ideal) x0 x1 x2 (ix3 p t h) = outR x0 (slab x1 p) (x2 (ix1 p)) t h := by
  rw [val_main_v20_apply]
  unfold outR
  refine Finset.sum_congr rfl fun k _ => ?_
  rw [out_lhs, out_rhs, attnR_eq]
  rfl

/-- The reference's attention result is the specification's attention array. -/
theorem attn_eq : val_main_v19 (F := Ideal) x0 x1 x2 = attnArr x0 x1 x2 := by
  funext i
  obtain ⟨p, t, l, rfl⟩ : ∃ p t l, i = ix3 p t l := ⟨i 0, i 1, i 2, eq_ix3 i⟩
  rw [attnR_eq]
  rfl

/-- The reference's output result is the specification's output array. -/
theorem out_eq : val_main_v20 (F := Ideal) x0 x1 x2 = outArr x0 x1 x2 := by
  funext i
  obtain ⟨p, t, h, rfl⟩ : ∃ p t h, i = ix3 p t h := ⟨i 0, i 1, i 2, eq_ix3 i⟩
  rw [outR_eq]
  rfl

end Stages

end Cert.ReferenceIdeal.RefValue

end
-- ==== Proof.KernelPay.lean ====
/-
  The kernel body's arithmetic, read at an index.

  Per protein the body computes, on whole vectors: the scores (a matrix product contracting the 256 hidden
  coordinates of the term rows with those of the protein's rows), the mask (the lane number against the length word), the
  masked scores with −∞ at masked lanes, each row's maximum, the exponentials of the differences with the masked lanes
  zeroed, each row's sum and its reciprocal, the attention block (exponentials times the reciprocal) and the output
  block (the exponentials' product with the protein's rows, times the reciprocal). The two proteins of a grid step run the
  same text on different operands, so the vectors are named once here, over arbitrary operands, and each stored payload is
  one of them by unfolding. Read at an index, each is the specification's kernel-form row.
-/
import proofs.«414325_j37056977829929_3_alg».proof.Proof.Gen.KernelIdeal.Skeleton
import proofs.«414325_j37056977829929_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Idealize.ShloMosaic Idealize.ShloMosaic.ValueIdx Cert.KernelIdeal
open Cert.KernelIdeal.Facts₀ Cert.KernelIdeal.Facts

variable [Cert.KernelIdeal.Facts]

/-! ## The body's vectors, over arbitrary operands

`tb` the term block (already narrowed), `lane` the lane numbers, `pb` one protein's rows (already narrowed), `len` its length word. -/

/-- The mask: lane number ≥ length. -/
def vMask (lane : IVec S512x1024 32) (len : Elt Ideal .i32) : IVec S512x1024 1 :=
  cmpi .sge lane (broadcast S512x1024 len)

/-- The masked scores. -/
def vX (tb : FVec Ideal S512x256 .bf16) (lane : IVec S512x1024 32) (pb : FVec Ideal S1024x256 .bf16) (len : Elt Ideal .i32) :
    FVec Ideal S512x1024 .f32 :=
  select (vMask lane len) (broadcast S512x1024 (Named.named (F := Ideal) κ "neg_big" (φ := .f32) 0xFF333332#32))
    (matmul dot_S512x256_S1024x256_S512x1024_1_1_0_0_n_n none tb pb (constant S512x1024 .f32 0x00000000#32))

/-- Each row's maximum of the masked scores, kept as a column. -/
def vMax (tb : FVec Ideal S512x256 .bf16) (lane : IVec S512x1024 32) (pb : FVec Ideal S1024x256 .bf16) (len : Elt Ideal .i32) :
    FVec Ideal S512x1 .f32 :=
  shapeCast S512x1 (multiReduction .maximumf [1] S512 (vX tb lane pb len) 0xFF800000#32 reduces_S512x1024_S512 (.inl rfl) rfl)
    shapeCasts_S512_S512x1

/-- The exponentials, masked lanes zeroed. -/
def vE (tb : FVec Ideal S512x256 .bf16) (lane : IVec S512x1024 32) (pb : FVec Ideal S1024x256 .bf16) (len : Elt Ideal .i32) :
    FVec Ideal S512x1024 .f32 :=
  select (vMask lane len) (broadcast S512x1024 (Scalar.ofBits (F := Ideal) .f32 0x00000000#32))
    (exp (subf (vX tb lane pb len) (broadcastTo S512x1024 (vMax tb lane pb len) broadcasts_S512x1_S512x1024)))

/-- Each row's reciprocal of the sum of its exponentials, as a column. -/
def vR (tb : FVec Ideal S512x256 .bf16) (lane : IVec S512x1024 32) (pb : FVec Ideal S1024x256 .bf16) (len : Elt Ideal .i32) :
    FVec Ideal S512x1 .f32 :=
  divf (broadcast S512x1 (Scalar.ofBits (F := Ideal) .f32 0x3F800000#32))
    (shapeCast S512x1 (multiReduction .add [1] S512 (vE tb lane pb len) 0x00000000#32 reduces_S512x1024_S512 (.inl rfl) rfl)
      shapeCasts_S512_S512x1)

/-- The attention block as stored: one protein's slab. -/
def vAttn (tb : FVec Ideal S512x256 .bf16) (lane : IVec S512x1024 32) (pb : FVec Ideal S1024x256 .bf16) (len : Elt Ideal .i32) :
    FVec Ideal S1x512x1024 .f32 :=
  shapeCast S1x512x1024 (mulf (vE tb lane pb len) (broadcastTo S512x1024 (vR tb lane pb len) broadcasts_S512x1_S512x1024))
    shapeCasts_S512x1024_S1x512x1024

/-- The output block as stored: one protein's slab. -/
def vOut (tb : FVec Ideal S512x256 .bf16) (lane : IVec S512x1024 32) (pb : FVec Ideal S1024x256 .bf16) (len : Elt Ideal .i32) :
    FVec Ideal S1x512x256 .f32 :=
  shapeCast S1x512x256
    (mulf (matmul dot_S512x1024_S1024x256_S512x256_1_0_0_1_n_n none (truncf .bf16 (vE tb lane pb len) bitsLt_bf16_f32) pb
        (constant S512x256 .f32 0x00000000#32))
      (broadcastTo S512x256 (vR tb lane pb len) broadcasts_S512x1_S512x256))
    shapeCasts_S512x256_S1x512x256

/-- The lane numbers the body makes. -/
def lanes : IVec S512x1024 32 := iota .tc S512x1024 32 [1] iota_S512x1024_d1_w32

/-! ## The stored payloads are these vectors -/

theorem pay10_eq (v0 : Vec Ideal S512x256 .f32) (v3 : Vec Ideal S1x1024x256 .f32) (v10 : Elt Ideal .i32) :
    Gen.k0_pay10 (F := Ideal) v0 v3 v10 = vAttn (Gen.k0_pay6 v0) lanes (Gen.k0_pay7 v3) v10 := rfl

theorem pay11_eq (v0 : Vec Ideal S512x256 .f32) (v3 : Vec Ideal S1x1024x256 .f32) (v10 : Elt Ideal .i32) :
    Gen.k0_pay11 (F := Ideal) v0 v3 v10 = vOut (Gen.k0_pay6 v0) lanes (Gen.k0_pay7 v3) v10 := rfl

theorem pay4_eq (v1 : FVec Ideal S512x256 .bf16) (v2 : IVec S512x1024 32) (v38 : Vec Ideal S1x1024x256 .f32) (v45 : Elt Ideal .i32) :
    Gen.k0_pay4 (F := Ideal) v1 v2 v38 v45 = vAttn v1 v2 (Gen.k0_pay1 v38) v45 := rfl

theorem pay5_eq (v1 : FVec Ideal S512x256 .bf16) (v2 : IVec S512x1024 32) (v38 : Vec Ideal S1x1024x256 .f32) (v45 : Elt Ideal .i32) :
    Gen.k0_pay5 (F := Ideal) v1 v2 v38 v45 = vOut v1 v2 (Gen.k0_pay1 v38) v45 := rfl

end Cert.KernelIdeal.PayValue

end
-- ==== Proof.KernelIdx.lean ====
/-
  The kernel body's vectors, read at an index: each is the specification's kernel-form row.

  The lane numbers count the second coordinate; the narrowing of the term block and of a protein's rows is a change
  of format, the identity on extended reals, and the protein's rows are read through a cast that drops the slab's
  unit axis. With the lane numbers known, the mask at (t, l) is the specification's mask bit of l; the first matrix
  product at (t, l) is the inner product of term row t with protein row l over the 256 hidden coordinates; the
  named constant at masked lanes is −∞; a row's maximum is the fold of max from −∞ over the 1024 lanes, a row's sum
  the sum over them; the column kept by the reductions is read back along the row; and the second matrix product
  at (t, h) sums over the 1024 lanes the exponentials times the protein's entries.
-/
import proofs.«414325_j37056977829929_3_alg».proof.Proof.KernelPay
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Idealize.ShloMosaic Idealize.ShloMosaic.ValueIdx Cert.KernelIdeal
open Cert.KernelIdeal.Facts₀ Cert.KernelIdeal.Facts

variable [Cert.KernelIdeal.Facts]

/-! ## Lane numbers, and the operands as loaded -/

/-- The lane numbers count the second coordinate. -/
theorem lanes_apply (t : Fin 512) (l : Fin 1024) : lanes (ix2 t l) = BitVec.ofNat 32 l.val :=
  iota_single_apply .tc S512x1024 32 1 iota_S512x1024_d1_w32 (ix2 t l)

/-- Narrowing the term block is a change of format: the identity on extended reals. -/
theorem pay6_eq (v0 : Vec Ideal S512x256 .f32) : Gen.k0_pay6 (F := Ideal) v0 = v0 := rfl

/-- The first protein's rows: the slab's unit axis dropped, the format change the identity. -/
theorem pay7_apply (v3 : Vec Ideal S1x1024x256 .f32) (l : Fin 1024) (h : Fin 256) :
    Gen.k0_pay7 (F := Ideal) v3 (ix2 l h) = v3 (ix3 (0 : Fin 1) l h) :=
  shapeCast_1ab_ab_apply v3 shapeCasts_S1x1024x256_S1024x256 l h

/-- The second protein's rows, likewise. -/
theorem pay1_apply (v38 : Vec Ideal S1x1024x256 .f32) (l : Fin 1024) (h : Fin 256) :
    Gen.k0_pay1 (F := Ideal) v38 (ix2 l h) = v38 (ix3 (0 : Fin 1) l h) :=
  shapeCast_1ab_ab_apply v38 shapeCasts_S1x1024x256_S1024x256 l h

/-! ## The mask -/

/-- The mask at (t, l) is the specification's mask bit of lane l. -/
theorem vMask_apply (lane : IVec S512x1024 32) (len : Elt Ideal .i32)
    (hlane : ∀ (t : Fin 512) (l : Fin 1024), lane (ix2 t l) = BitVec.ofNat 32 l.val) (t : Fin 512) (l : Fin 1024) :
    vMask lane len (ix2 t l) = Cert.Attn.mbit len l := by
  show IntOp.cmpi .sge (lane (ix2 t l)) len = IntOp.cmpi .sge (BitVec.ofNat 32 l.val) len
  rw [hlane]

/-! ## The first matrix product: the scores -/

theorem lhs_score_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs_score_1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem rhs_score_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs_score_1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The first product at (t, l): term row t against protein row l, summed over the 256 hidden coordinates. -/
theorem score_apply (tb : FVec Ideal S512x256 .bf16) (pb : FVec Ideal S1024x256 .bf16) (t : Fin 512) (l : Fin 1024) :
    matmul dot_S512x256_S1024x256_S512x1024_1_1_0_0_n_n none tb pb (constant S512x1024 .f32 0x00000000#32) (ix2 t l) = Cert.Attn.score tb pb t l := by
  unfold Cert.Attn.score
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 t l) ((contrEquiv1 dot_S512x256_S1024x256_S512x1024_1_1_0_0_n_n 256 rfl rfl).symm k) = ix2 t k := funext fun a => Fin.ext (by
    match a with
    | ⟨0, _⟩ => exact lhs_score_0 _ _
    | ⟨1, _⟩ => exact (lhs_score_1 _ _).trans hk)
  have er : dot_S512x256_S1024x256_S512x1024_1_1_0_0_n_n.rhsIdx (ix2 t l) ((contrEquiv1 dot_S512x256_S1024x256_S512x1024_1_1_0_0_n_n 256 rfl rfl).symm k) = ix2 l k := funext fun a => Fin.ext (by
    match a with
    | ⟨0, _⟩ => exact rhs_score_0 _ _
    | ⟨1, _⟩ => exact (rhs_score_1 _ _).trans hk)
  rw [el, er]

/-- The named constant at masked lanes is −∞. -/
theorem neg_big_eq : Named.named (F := Ideal) κ "neg_big" (φ := .f32) 0xFF333332#32 = (⊥ : EReal) := rfl

/-- The masked scores at (t, l). -/
theorem vX_apply (tb : FVec Ideal S512x256 .bf16) (lane : IVec S512x1024 32) (pb : FVec Ideal S1024x256 .bf16) (len : Elt Ideal .i32)
    (hlane : ∀ (t : Fin 512) (l : Fin 1024), lane (ix2 t l) = BitVec.ofNat 32 l.val) (t : Fin 512) (l : Fin 1024) :
    vX tb lane pb len (ix2 t l) = Cert.Attn.xs tb pb len t l := by
  unfold vX Cert.Attn.xs
  rw [select_apply, vMask_apply lane len hlane, broadcast_apply, neg_big_eq, score_apply]

/-! ## Reductions along a row, and the column they keep -/

/-- The reduced index t with lane k put back is (t, k). -/
theorem lift_row (t : Fin 512) (k : Fin 1024) : reduces_S512x1024_S512.lift (ix1 t) k = ix2 t k := by
  funext a
  match a with
  | ⟨0, _⟩ => rfl
  | ⟨1, _⟩ => rfl

/-- The pattern 0xFF800000 (sign set, exponent all ones, fraction zero) is −∞. -/
theorem ofBits_neg_inf : Ideal.ofBits .f32 0xFF800000#32 = (⊥ : EReal) := by simp [Ideal.ofBits, Ideal.ieee]

/-- The pattern 0x3F800000 is 1. -/
theorem ofBits_one : Ideal.ofBits .f32 0x3F800000#32 = (1 : EReal) := by
  simp [Ideal.ofBits, Ideal.ieee, -EReal.coe_mul]; norm_num

/-- A row's maximum: the fold of max from −∞ over the row's 1024 lanes. -/
theorem rowmax_apply (X : FVec Ideal S512x1024 .f32) (t : Fin 512) :
    multiReduction (F := Ideal) .maximumf [1] S512 X 0xFF800000#32 reduces_S512x1024_S512 (.inl rfl) rfl (ix1 t)
      = (Finset.univ : Finset (Fin 1024)).fold max (⊥ : EReal) (fun l => X (ix2 t l)) := by
  refine (Ideal.multiReduction_maximumf_single X _ reduces_S512x1024_S512 (.inl rfl) rfl (ix1 t)).trans ?_
  show (Finset.univ : Finset (Fin 1024)).fold max (Ideal.ofBits .f32 0xFF800000#32) (X ∘ reduces_S512x1024_S512.lift (ix1 t)) = _
  rw [ofBits_neg_inf]
  exact congrArg (fun f => (Finset.univ : Finset (Fin 1024)).fold max (⊥ : EReal) f) (funext fun l => congrArg X (lift_row t l))

/-- A row's sum: the sum over the row's 1024 lanes. -/
theorem rowsum_apply (X : FVec Ideal S512x1024 .f32) (t : Fin 512) :
    multiReduction (F := Ideal) .add [1] S512 X 0x00000000#32 reduces_S512x1024_S512 (.inl rfl) rfl (ix1 t)
      = ∑ l : Fin 1024, X (ix2 t l) := by
  refine (Ideal.multiReduction_add_single X _ reduces_S512x1024_S512 (.inl rfl) rfl (ix1 t)).trans ?_
  exact Finset.sum_congr rfl fun l _ => congrArg X (lift_row t l)

/-- A vector of 512 entries kept as a column reads its row's entry. -/
theorem col_apply {α : Type} (v : S512.Idx → α) (t : Fin 512) (z : Fin 1) :
    shapeCast S512x1 v shapeCasts_S512_S512x1 (ix2 t z) = v (ix1 t) :=
  shapeCast_apply v _ _ _ (by
    have hz : z.val = 0 := by omega
    rw [Shape.rowMajor_val_one, Shape.rowMajor_val_two]
    show t.val = t.val * 1 + z.val
    omega)

/-- The column spread along the 1024 lanes reads its row's entry. -/
theorem spread_lanes_apply {α : Type} (c : S512x1.Idx → α) (t : Fin 512) (l : Fin 1024) :
    broadcastTo S512x1024 c broadcasts_S512x1_S512x1024 (ix2 t l) = c (ix2 t (0 : Fin 1)) :=
  broadcastTo_apply c _ _ _ (fun a => match a with
    | ⟨0, _⟩ => by show t.val = if (512 : Nat) = 1 then 0 else t.val; rw [if_neg (by decide)]
    | ⟨1, _⟩ => by show 0 = if (1 : Nat) = 1 then 0 else l.val; rw [if_pos rfl])

/-- The column spread along the 256 hidden coordinates reads its row's entry. -/
theorem spread_hidden_apply {α : Type} (c : S512x1.Idx → α) (t : Fin 512) (h : Fin 256) :
    broadcastTo S512x256 c broadcasts_S512x1_S512x256 (ix2 t h) = c (ix2 t (0 : Fin 1)) :=
  broadcastTo_apply c _ _ _ (fun a => match a with
    | ⟨0, _⟩ => by show t.val = if (512 : Nat) = 1 then 0 else t.val; rw [if_neg (by decide)]
    | ⟨1, _⟩ => by show 0 = if (1 : Nat) = 1 then 0 else h.val; rw [if_pos rfl])

/-! ## The body's vectors at an index -/

/-- The exponential at an index is the exponential of the element. -/
theorem exp_apply {s : Shape} {φ : FTy} (a : FVec Ideal s φ) (i : s.Idx) : exp a i = Ideal.exp (a i) := rfl

/-- The kept column of row maxima at row t is the specification's row maximum. -/
theorem vMax_apply (tb : FVec Ideal S512x256 .bf16) (lane : IVec S512x1024 32) (pb : FVec Ideal S1024x256 .bf16) (len : Elt Ideal .i32)
    (hlane : ∀ (t : Fin 512) (l : Fin 1024), lane (ix2 t l) = BitVec.ofNat 32 l.val) (t : Fin 512) :
    vMax tb lane pb len (ix2 t (0 : Fin 1)) = Cert.Attn.rowMax tb pb len t := by
  unfold vMax Cert.Attn.rowMax
  refine (col_apply _ t 0).trans ?_
  refine (rowmax_apply _ t).trans ?_
  exact congrArg (fun f => (Finset.univ : Finset (Fin 1024)).fold max (⊥ : EReal) f)
    (funext fun l => vX_apply tb lane pb len hlane t l)

/-- The exponentials with the masked lanes zeroed, at (t, l). -/
theorem vE_apply (tb : FVec Ideal S512x256 .bf16) (lane : IVec S512x1024 32) (pb : FVec Ideal S1024x256 .bf16) (len : Elt Ideal .i32)
    (hlane : ∀ (t : Fin 512) (l : Fin 1024), lane (ix2 t l) = BitVec.ofNat 32 l.val) (t : Fin 512) (l : Fin 1024) :
    vE tb lane pb len (ix2 t l) = Cert.Attn.eK tb pb len t l := by
  unfold vE Cert.Attn.eK
  rw [select_apply, vMask_apply lane len hlane, broadcast_apply, exp_apply, subf_apply, spread_lanes_apply,
    vMax_apply tb lane pb len hlane, vX_apply tb lane pb len hlane]
  exact congrArg (fun z => Scalar.select (Cert.Attn.mbit len l) z _) Ideal.ofBits_zero_f32

/-- The kept column of reciprocals at row t is the specification's reciprocal of the row's sum. -/
theorem vR_apply (tb : FVec Ideal S512x256 .bf16) (lane : IVec S512x1024 32) (pb : FVec Ideal S1024x256 .bf16) (len : Elt Ideal .i32)
    (hlane : ∀ (t : Fin 512) (l : Fin 1024), lane (ix2 t l) = BitVec.ofNat 32 l.val) (t : Fin 512) :
    vR tb lane pb len (ix2 t (0 : Fin 1)) = Cert.Attn.rK tb pb len t := by
  unfold vR Cert.Attn.rK Cert.Attn.zK
  rw [divf_apply, broadcast_apply, col_apply, rowsum_apply]
  refine (congrArg (fun z => Ideal.div z _) ofBits_one).trans ?_
  exact congrArg (Ideal.div 1) (Finset.sum_congr rfl fun l _ => vE_apply tb lane pb len hlane t l)

/-- The attention block at (u, t, l) is the specification's kernel-form attention. -/
theorem vAttn_apply (tb : FVec Ideal S512x256 .bf16) (lane : IVec S512x1024 32) (pb : FVec Ideal S1024x256 .bf16) (len : Elt Ideal .i32)
    (hlane : ∀ (t : Fin 512) (l : Fin 1024), lane (ix2 t l) = BitVec.ofNat 32 l.val) (u : Fin 1) (t : Fin 512) (l : Fin 1024) :
    vAttn tb lane pb len (ix3 u t l) = Cert.Attn.attnK tb pb len t l := by
  unfold vAttn Cert.Attn.attnK
  refine (shapeCast_ab_1ab_apply _ shapeCasts_S512x1024_S1x512x1024 u t l).trans ?_
  rw [mulf_apply, spread_lanes_apply, vE_apply tb lane pb len hlane, vR_apply tb lane pb len hlane]

/-! ## The second matrix product, and the output block -/

theorem lhs_out_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_out_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_out_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_out_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The second product at (t, h): row t of the left operand against column h of the protein's rows, summed over the
    1024 lanes. -/
theorem out_prod_apply (E : FVec Ideal S512x1024 .bf16) (pb : FVec Ideal S1024x256 .bf16) (t : Fin 512) (h : Fin 256) :
    matmul dot_S512x1024_S1024x256_S512x256_1_0_0_1_n_n none E pb (constant S512x256 .f32 0x00000000#32) (ix2 t h)
      = ∑ l : Fin 1024, E (ix2 t l) * pb (ix2 l h) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 t h) ((contrEquiv1 dot_S512x1024_S1024x256_S512x256_1_0_0_1_n_n 1024 rfl rfl).symm k) = ix2 t k := funext fun a => Fin.ext (by
    match a with
    | ⟨0, _⟩ => exact lhs_out_0 _ _
    | ⟨1, _⟩ => exact (lhs_out_1 _ _).trans hk)
  have er : dot_S512x1024_S1024x256_S512x256_1_0_0_1_n_n.rhsIdx (ix2 t h) ((contrEquiv1 dot_S512x1024_S1024x256_S512x256_1_0_0_1_n_n 1024 rfl rfl).symm k) = ix2 k h := funext fun a => Fin.ext (by
    match a with
    | ⟨0, _⟩ => exact (rhs_out_0 _ _).trans hk
    | ⟨1, _⟩ => exact rhs_out_1 _ _)
  rw [el, er]

/-- The output block at (u, t, h) is the specification's kernel-form output. -/
theorem vOut_apply (tb : FVec Ideal S512x256 .bf16) (lane : IVec S512x1024 32) (pb : FVec Ideal S1024x256 .bf16) (len : Elt Ideal .i32)
    (hlane : ∀ (t : Fin 512) (l : Fin 1024), lane (ix2 t l) = BitVec.ofNat 32 l.val) (u : Fin 1) (t : Fin 512) (h : Fin 256) :
    vOut tb lane pb len (ix3 u t h) = Cert.Attn.outK tb pb len t h := by
  unfold vOut Cert.Attn.outK
  refine (shapeCast_ab_1ab_apply _ shapeCasts_S512x256_S1x512x256 u t h).trans ?_
  rw [mulf_apply, spread_hidden_apply, vR_apply tb lane pb len hlane, out_prod_apply]
  refine congrArg (· * Cert.Attn.rK tb pb len t) (Finset.sum_congr rfl fun l _ => ?_)
  rw [truncf_apply, vE_apply tb lane pb len hlane]

end Cert.KernelIdeal.PayValue

end
-- ==== Proof.Pieces.lean ====
/-
  What the body leaves in each output window's staging block, index by index.

  A grid point handles two proteins. For slab b (0 or 1) of the point the body loads slab b of the protein window's block,
  reads the length word at offset 2·(point) + b of the length table, and stores one attention slab and one output slab;
  the two stores of a window tile its block. So the attention block at (b, t, l) is the kernel-form attention of the term
  block against slab b's rows under that length word at (t, l), and the output block at (b, t, h) likewise: each store's
  payload, read at its local index, is that one function of the block index at the place the store's rectangle puts it.
-/
import proofs.«414325_j37056977829929_3_alg».proof.Proof.Gen.KernelIdeal.Frame
import proofs.«414325_j37056977829929_3_alg».proof.Proof.KernelIdx
import Idealize.ShloMosaic.Lib.Pipeline.Value
import Idealize.ShloMosaic.Lib.ValueIdx

set_option maxRecDepth 16384

noncomputable section

namespace Cert.KernelIdeal.BlockValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.PayValue

/-- The length word the body reads for slab `b` at grid point `i`: the table's word at the offset the body computes. -/
def word (c : Dev nD) (i : grid0.Coords) (b : Fin 2) (xt0 : TbBuf0 (F := Ideal) c tbM0_0) : Elt Ideal .i32 :=
  View.readAt (Elt Ideal) tbM0_0.view
    (Rect.unit (s := S64) (k0_off1 i (BitVec.ofNat 32 b.val)) S1.size (Facts₀.k0_off1_inb i b)).toLoadRect xt0
    (Shape.Idx.first (Facts₀.numel1_S1.symm ▸ Nat.one_pos))

/-- Slab `b` of a protein block, as one protein's matrix. -/
def slabOf (x1 : Vec Ideal S2x1024x256 .f32) (b : Fin 2) : Cert.Attn.ProtS.Idx → EReal := fun j => x1 (ix3 b (j 0) (j 1))

theorem zeros2 : (![0, 0] : Fin 2 → Nat) = fun _ => 0 := funext fun a => by fin_cases a <;> rfl

/-- A load of slab `b` of a protein block, its unit axis dropped, is that slab's matrix. -/
theorem rows_of_slab (x1 : Vec Ideal S2x1024x256 .f32) (b : Fin 2) (off : Fin 3 → Nat) (hoff : off = ![b.val, 0, 0])
    (inb : ∀ a, off a + S1x1024x256.size a ≤ S2x1024x256.size a) (pay : Vec Ideal S1x1024x256 .f32 → FVec Ideal S1024x256 .bf16)
    (hpay : ∀ (v : Vec Ideal S1x1024x256 .f32) (l : Fin 1024) (h : Fin 256), pay v (ix2 l h) = v (ix3 (0 : Fin 1) l h)) :
    pay (View.ld x1 (Rect.unit (s := S2x1024x256) off S1x1024x256.size inb)) = slabOf x1 b := by
  subst hoff
  funext j
  obtain ⟨l, h, rfl⟩ : ∃ (l : Fin 1024) (h : Fin 256), j = ix2 l h := ⟨j 0, j 1, eq_ix2 j⟩
  rw [hpay]
  show x1 _ = x1 _
  refine congrArg x1 (funext fun a => Fin.ext ?_)
  match a with
  | ⟨0, _⟩ => show b.val + 1 * 0 = b.val; omega
  | ⟨1, _⟩ => show 0 + 1 * l.val = l.val; omega
  | ⟨2, _⟩ => show 0 + 1 * h.val = h.val; omega

/-- Where a slab store's local index lands in the block. -/
theorem slab_emb {n1 n2 : Nat} (b : Fin 2) (off : Fin 3 → Nat) (hoff : off = ![b.val, 0, 0])
    (inb : ∀ a, off a + (⟨3, ![1, n1, n2]⟩ : Shape).size a ≤ (⟨3, ![2, n1, n2]⟩ : Shape).size a) (u : Fin 1) (t : Fin n1) (l : Fin n2) :
    (Rect.unit (s := (⟨3, ![2, n1, n2]⟩ : Shape)) off (⟨3, ![1, n1, n2]⟩ : Shape).size inb).emb (ix3 u t l) = ix3 b t l := by
  subst hoff
  refine funext fun a => Fin.ext ?_
  have hu : u.val = 0 := by omega
  match a with
  | ⟨0, _⟩ => show b.val + 1 * u.val = b.val; omega
  | ⟨1, _⟩ => show 0 + 1 * t.val = t.val; omega
  | ⟨2, _⟩ => show 0 + 1 * l.val = l.val; omega

/-- The attention window's staging block after the body. -/
theorem out3_apply (c : Dev nD) (i : grid0.Coords) (arg2 : Memref sig .tc .vmem S512x256 .f32) (harg2 : arg2.IsWhole) (arg3 : Memref sig .tc .vmem S2x1024x256 .f32) (harg3 : arg3.IsWhole) (arg4 : Memref sig .tc .vmem S2x512x256 .f32) (harg4 : arg4.IsWhole) (arg5 : Memref sig .tc .vmem S2x512x1024 .f32) (harg5 : arg5.IsWhole)
    (x0 : Vec Ideal S512x256 .f32) (x1 : Vec Ideal S2x1024x256 .f32) (xt0 : TbBuf0 (F := Ideal) c tbM0_0) (y : S2x512x1024.Idx) :
    out0_A_3 (F := Ideal) c i arg2 harg2 arg3 harg3 arg4 harg4 arg5 harg5 x0 x1 xt0 y
      = Cert.Attn.attnK x0 (slabOf x1 (y 0)) (word c i (y 0) xt0) (y 1) (y 2) := by
  unfold out0_A_3
  rw [View.read_writes_eq_canon _ _ _ (cover0_A_3 c i arg2 harg2 arg3 harg3 arg4 harg4 arg5 harg5 x0 x1 xt0)]
  refine View.canon_apply_of_pieces (fun y => Cert.Attn.attnK x0 (slabOf x1 (y 0)) (word c i (y 0) xt0) (y 1) (y 2)) _ ?_ y
    (cover0_A_3 c i arg2 harg2 arg3 harg3 arg4 harg4 arg5 harg5 x0 x1 xt0 y)
  unfold kernelRun0_A
  dsimp only
  sl_unfold_words
  intro p hp x
  simp only [List.mem_cons, List.not_mem_nil, or_false] at hp
  rcases hp with rfl | rfl
  · obtain ⟨u, t, l, rfl⟩ : ∃ (u : Fin 1) (t : Fin 512) (l : Fin 1024), x = ix3 u t l := ⟨x 0, x 1, x 2, eq_ix3 x⟩
    dsimp only
    have he : (Rect.unit (s := S2x512x1024) ![1, 0, 0] ![1, 512, 1024] Facts₀.inb_S2x512x1024_S1x512x1024_1_0_0).emb (ix3 u t l) = ix3 (1 : Fin 2) t l :=
      slab_emb (1 : Fin 2) _ rfl _ u t l
    rw [he]
    refine (congrFun (pay4_eq _ _ _ _) _).trans ?_
    refine (vAttn_apply _ _ _ _ lanes_apply u t l).trans ?_
    simp only [View.readAt_eq_ld, harg2.read_unread, harg3.read_unread, View.ld_unit_zero (S := S512x256) zeros2, pay6_eq]
    have e1 : Gen.k0_pay1 (F := Ideal) (View.ld x1 (Rect.unit (s := S2x1024x256) ![1, 0, 0] ![1, 1024, 256] Facts₀.inb_S2x1024x256_S1x1024x256_1_0_0)) = slabOf x1 (1 : Fin 2) :=
      rows_of_slab x1 (1 : Fin 2) _ rfl _ _ pay1_apply
    rw [e1]
    rfl
  · obtain ⟨u, t, l, rfl⟩ : ∃ (u : Fin 1) (t : Fin 512) (l : Fin 1024), x = ix3 u t l := ⟨x 0, x 1, x 2, eq_ix3 x⟩
    dsimp only
    have he : (Rect.unit (s := S2x512x1024) ![0, 0, 0] ![1, 512, 1024] Facts₀.inb_S2x512x1024_S1x512x1024_0_0_0).emb (ix3 u t l) = ix3 (0 : Fin 2) t l :=
      slab_emb (0 : Fin 2) _ rfl _ u t l
    rw [he]
    refine (congrFun (pay10_eq _ _ _) _).trans ?_
    refine (vAttn_apply _ _ _ _ lanes_apply u t l).trans ?_
    simp only [View.readAt_eq_ld, harg2.read_unread, harg3.read_unread, View.ld_unit_zero (S := S512x256) zeros2, pay6_eq]
    have e1 : Gen.k0_pay7 (F := Ideal) (View.ld x1 (Rect.unit (s := S2x1024x256) ![0, 0, 0] ![1, 1024, 256] Facts₀.inb_S2x1024x256_S1x1024x256_0_0_0)) = slabOf x1 (0 : Fin 2) :=
      rows_of_slab x1 (0 : Fin 2) _ rfl _ _ pay7_apply
    rw [e1]
    rfl

/-- The output window's staging block after the body. -/
theorem out2_apply (c : Dev nD) (i : grid0.Coords) (arg2 : Memref sig .tc .vmem S512x256 .f32) (harg2 : arg2.IsWhole) (arg3 : Memref sig .tc .vmem S2x1024x256 .f32) (harg3 : arg3.IsWhole) (arg4 : Memref sig .tc .vmem S2x512x256 .f32) (harg4 : arg4.IsWhole) (arg5 : Memref sig .tc .vmem S2x512x1024 .f32) (harg5 : arg5.IsWhole)
    (x0 : Vec Ideal S512x256 .f32) (x1 : Vec Ideal S2x1024x256 .f32) (xt0 : TbBuf0 (F := Ideal) c tbM0_0) (y : S2x512x256.Idx) :
    out0_A_2 (F := Ideal) c i arg2 harg2 arg3 harg3 arg4 harg4 arg5 harg5 x0 x1 xt0 y
      = Cert.Attn.outK x0 (slabOf x1 (y 0)) (word c i (y 0) xt0) (y 1) (y 2) := by
  unfold out0_A_2
  rw [View.read_writes_eq_canon _ _ _ (cover0_A_2 c i arg2 harg2 arg3 harg3 arg4 harg4 arg5 harg5 x0 x1 xt0)]
  refine View.canon_apply_of_pieces (fun y => Cert.Attn.outK x0 (slabOf x1 (y 0)) (word c i (y 0) xt0) (y 1) (y 2)) _ ?_ y
    (cover0_A_2 c i arg2 harg2 arg3 harg3 arg4 harg4 arg5 harg5 x0 x1 xt0 y)
  unfold kernelRun0_A
  dsimp only
  sl_unfold_words
  intro p hp x
  simp only [List.mem_cons, List.not_mem_nil, or_false] at hp
  rcases hp with rfl | rfl
  · obtain ⟨u, t, l, rfl⟩ : ∃ (u : Fin 1) (t : Fin 512) (l : Fin 256), x = ix3 u t l := ⟨x 0, x 1, x 2, eq_ix3 x⟩
    dsimp only
    have he : (Rect.unit (s := S2x512x256) ![1, 0, 0] ![1, 512, 256] Facts₀.inb_S2x512x256_S1x512x256_1_0_0).emb (ix3 u t l) = ix3 (1 : Fin 2) t l :=
      slab_emb (1 : Fin 2) _ rfl _ u t l
    rw [he]
    refine (congrFun (pay5_eq _ _ _ _) _).trans ?_
    refine (vOut_apply _ _ _ _ lanes_apply u t l).trans ?_
    simp only [View.readAt_eq_ld, harg2.read_unread, harg3.read_unread, View.ld_unit_zero (S := S512x256) zeros2, pay6_eq]
    have e1 : Gen.k0_pay1 (F := Ideal) (View.ld x1 (Rect.unit (s := S2x1024x256) ![1, 0, 0] ![1, 1024, 256] Facts₀.inb_S2x1024x256_S1x1024x256_1_0_0)) = slabOf x1 (1 : Fin 2) :=
      rows_of_slab x1 (1 : Fin 2) _ rfl _ _ pay1_apply
    rw [e1]
    rfl
  · obtain ⟨u, t, l, rfl⟩ : ∃ (u : Fin 1) (t : Fin 512) (l : Fin 256), x = ix3 u t l := ⟨x 0, x 1, x 2, eq_ix3 x⟩
    dsimp only
    have he : (Rect.unit (s := S2x512x256) ![0, 0, 0] ![1, 512, 256] Facts₀.inb_S2x512x256_S1x512x256_0_0_0).emb (ix3 u t l) = ix3 (0 : Fin 2) t l :=
      slab_emb (0 : Fin 2) _ rfl _ u t l
    rw [he]
    refine (congrFun (pay11_eq _ _ _) _).trans ?_
    refine (vOut_apply _ _ _ _ lanes_apply u t l).trans ?_
    simp only [View.readAt_eq_ld, harg2.read_unread, harg3.read_unread, View.ld_unit_zero (S := S512x256) zeros2, pay6_eq]
    have e1 : Gen.k0_pay7 (F := Ideal) (View.ld x1 (Rect.unit (s := S2x1024x256) ![0, 0, 0] ![1, 1024, 256] Facts₀.inb_S2x1024x256_S1x1024x256_0_0_0)) = slabOf x1 (0 : Fin 2) :=
      rows_of_slab x1 (0 : Fin 2) _ rfl _ _ pay7_apply
    rw [e1]
    rfl

end Cert.KernelIdeal.BlockValue

end
-- ==== Proof.Final.lean ====
/-
  From blocks to arrays, on the kernel's side.

  The grid has 32 points; point t handles proteins 2t and 2t+1. Its term block is the whole term matrix, its protein block
  is rows (2t+b, l, h) of the stack for b = 0, 1, the length word it reads for slab b is the length table's word at 2t+b, and
  it writes back rows (2t+b, ·, ·) of the output and attention arrays. What it writes is, index by index, the kernel-form
  output and attention of the term matrix against protein 2t+b under that protein's length word: the block of ONE function
  of the three argument arrays. Every protein p lies in the block of point p / 2, and every point writes back, so after the
  run the two result arrays are those functions.
-/
import proofs.«414325_j37056977829929_3_alg».proof.Proof.Pieces
import proofs.«414325_j37056977829929_3_alg».proof.Proof.Arrays
import Idealize.ShloMosaic.Lib.Pipeline.Value
import Idealize.ShloMosaic.Lib.ValueIdx

set_option maxRecDepth 16384

noncomputable section

namespace Cert.KernelIdeal.BlockValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.PayValue
open Idealize.ShloMosaic.Pipeline (Dat)

variable (m : (ℓ : Loc nD τ sig) → Buf (Elt Ideal) ℓ) (ρ : Dev nD → PrngReg)

/-! ### The printed index maps, decided over the grid -/

/-- The term window's block index is (0, 0) at every point. -/
theorem idx_term (hO : Ok m) : ∀ t : Fin (cfgM m hO).N,
    ((cfgM m hO).win 0).index t (0 : Fin 2) = 0 ∧ ((cfgM m hO).win 0).index t (1 : Fin 2) = 0 :=
  (by decide +kernel : ∀ t : Fin grid0.N,
    cc0_transform_0 (grid0.coords t) (0 : Fin 2) = 0 ∧ cc0_transform_0 (grid0.coords t) (1 : Fin 2) = 0)

/-- The protein window's block index is (t, 0, 0) at point t. -/
theorem idx_prot (hO : Ok m) : ∀ t : Fin (cfgM m hO).N,
    ((cfgM m hO).win 1).index t (0 : Fin 3) = t.val ∧ ((cfgM m hO).win 1).index t (1 : Fin 3) = 0
      ∧ ((cfgM m hO).win 1).index t (2 : Fin 3) = 0 :=
  (by decide +kernel : ∀ t : Fin grid0.N,
    cc0_transform_1 (grid0.coords t) (0 : Fin 3) = t.val ∧ cc0_transform_1 (grid0.coords t) (1 : Fin 3) = 0
      ∧ cc0_transform_1 (grid0.coords t) (2 : Fin 3) = 0)

/-- The output window's block index is (t, 0, 0) at point t. -/
theorem idx_out (hO : Ok m) : ∀ t : Fin (cfgM m hO).N,
    ((cfgM m hO).win 2).index t (0 : Fin 3) = t.val ∧ ((cfgM m hO).win 2).index t (1 : Fin 3) = 0
      ∧ ((cfgM m hO).win 2).index t (2 : Fin 3) = 0 :=
  (by decide +kernel : ∀ t : Fin grid0.N,
    cc0_transform_2 (grid0.coords t) (0 : Fin 3) = t.val ∧ cc0_transform_2 (grid0.coords t) (1 : Fin 3) = 0
      ∧ cc0_transform_2 (grid0.coords t) (2 : Fin 3) = 0)

/-- The attention window's block index is (t, 0, 0) at point t. -/
theorem idx_attn (hO : Ok m) : ∀ t : Fin (cfgM m hO).N,
    ((cfgM m hO).win 3).index t (0 : Fin 3) = t.val ∧ ((cfgM m hO).win 3).index t (1 : Fin 3) = 0
      ∧ ((cfgM m hO).win 3).index t (2 : Fin 3) = 0 :=
  (by decide +kernel : ∀ t : Fin grid0.N,
    cc0_transform_3 (grid0.coords t) (0 : Fin 3) = t.val ∧ cc0_transform_3 (grid0.coords t) (1 : Fin 3) = 0
      ∧ cc0_transform_3 (grid0.coords t) (2 : Fin 3) = 0)

/-- The length table is read at offset 2t + b for slab b of point t. -/
theorem off_word : ∀ (t : Fin grid0.N) (b : Fin 2),
    k0_off1 (grid0.coords t) (BitVec.ofNat 32 b.val) (0 : Fin 1) = 2 * t.val + b.val := by
  decide +kernel

/-! ### The input blocks, read where the output block says -/

/-- The term block at any point is the whole term matrix. -/
theorem term_apply (hO : Ok m) (c : Dev nD) (t : Fin (cfgM m hO).N) (x : S512x256.Idx) :
    (iblk m hO c 0 t : Vec Ideal S512x256 .f32) x = (V m c main_arg0 : S512x256.Idx → EReal) x := by
  obtain ⟨e0, e1⟩ := idx_term m hO t
  show V m c main_arg0 ((((cfgM m hO).win 0).blk t).view.emb x) = V m c main_arg0 x
  congr 1
  funext a
  apply Fin.ext
  match a with
  | ⟨0, _⟩ =>
    show ((cfgM m hO).win 0).index t (0 : Fin 2) * 512 + 1 * (x 0).val = (x 0).val
    rw [e0]; omega
  | ⟨1, _⟩ =>
    show ((cfgM m hO).win 0).index t (1 : Fin 2) * 256 + 1 * (x 1).val = (x 1).val
    rw [e1]; omega

/-- The protein block at point t holds, at (b, l, h), the stack's entry (2t + b, l, h). -/
theorem prot_apply (hO : Ok m) (c : Dev nD) (t : Fin (cfgM m hO).N) (x : S2x1024x256.Idx) (k : S64x1024x256.Idx)
    (hk0 : (k 0).val = 2 * t.val + (x 0).val) (hk1 : (k 1).val = (x 1).val) (hk2 : (k 2).val = (x 2).val) :
    (iblk m hO c 1 t : Vec Ideal S2x1024x256 .f32) x = (V m c main_arg1 : S64x1024x256.Idx → EReal) k := by
  obtain ⟨e0, e1, e2⟩ := idx_prot m hO t
  show V m c main_arg1 ((((cfgM m hO).win 1).blk t).view.emb x) = V m c main_arg1 k
  congr 1
  funext a
  apply Fin.ext
  match a with
  | ⟨0, _⟩ =>
    show ((cfgM m hO).win 1).index t (0 : Fin 3) * 2 + 1 * (x 0).val = (k 0).val
    rw [e0, hk0]; omega
  | ⟨1, _⟩ =>
    show ((cfgM m hO).win 1).index t (1 : Fin 3) * 1024 + 1 * (x 1).val = (k 1).val
    rw [e1, hk1]; omega
  | ⟨2, _⟩ =>
    show ((cfgM m hO).win 1).index t (2 : Fin 3) * 256 + 1 * (x 2).val = (k 2).val
    rw [e2, hk2]; omega

/-- The length word the body reads for slab b at point t is the length vector's entry 2t + b. -/
theorem word_apply (c : Dev nD) (t : Fin grid0.N) (b : Fin 2) (k : S64.Idx) (hk : (k 0).val = 2 * t.val + b.val) :
    word c (grid0.coords t) b (tbl m 0) = (V m c main_arg2 : S64.Idx → BitVec 32) k := by
  obtain rfl : c = 0 := Subsingleton.elim _ _
  show (V m 0 main_arg2 : S64.Idx → BitVec 32) _ = (V m 0 main_arg2 : S64.Idx → BitVec 32) k
  congr 1
  funext a
  apply Fin.ext
  match a with
  | ⟨0, _⟩ =>
    show k0_off1 (grid0.coords t) (BitVec.ofNat 32 b.val) (0 : Fin 1) + 1 * 0 = (k 0).val
    rw [off_word t b, hk]; omega

/-! ### What a point writes back is its block of the whole-array function -/

/-- The kernel-form attention computed from a point's blocks is the attention array's entry, once the term block is the term
    matrix, slab (y 0) of the protein block is protein (i 0)'s matrix, the length word is protein (i 0)'s, and the row and
    position coordinates agree. -/
theorem attn_point (X0 : Vec Ideal S512x256 .f32) (X1 : Vec Ideal S2x1024x256 .f32) (wd : BitVec 32)
    (A0 : S512x256.Idx → EReal) (A1 : S64x1024x256.Idx → EReal) (A2 : S64.Idx → BitVec 32)
    (y : S2x512x1024.Idx) (i : S64x512x1024.Idx)
    (h0 : ∀ x, X0 x = A0 x) (h1 : ∀ l h, X1 (ix3 (y 0) l h) = A1 (ix3 (i 0) l h)) (h2 : wd = A2 (ix1 (i 0)))
    (hi1 : (i 1).val = (y 1).val) (hi2 : (i 2).val = (y 2).val) :
    Cert.Attn.attnK X0 (slabOf X1 (y 0)) wd (y 1) (y 2) = Cert.Attn.attnArrK A0 A1 A2 i := by
  have e0 : X0 = A0 := funext h0
  have e1 : slabOf X1 (y 0) = Cert.Attn.slab A1 (i 0) := funext fun j => h1 (j 0) (j 1)
  have e3 : (y 1 : Fin 512) = i 1 := Fin.ext hi1.symm
  have e4 : (y 2 : Fin 1024) = i 2 := Fin.ext hi2.symm
  rw [e0, e1, h2, e3, e4]
  rfl

/-- What point t writes back to the attention array is block t of the kernel-form attention array. -/
theorem flushed3_eq (hO : Ok m) (c : Dev nD) (t : Fin (cfgM m hO).N) :
    (dats m hO 0 c).flushed 3 t = (((cfgM m hO).win 3).blk t).view.read (Elt Ideal)
      (Cert.Attn.attnArrK (V m c main_arg0) (V m c main_arg1) (V m c main_arg2)) := by
  show ((cfgM m hO).win 3).cut (grid0.coords t) ((dats m hO 0 c).after 3 t) = _
  rw [after0_3]
  unfold outsAt0
  dsimp only
  refine funext fun (y : S2x512x1024.Idx) => ?_
  obtain ⟨e0, e1, e2⟩ := idx_attn m hO t
  obtain ⟨i, hi⟩ : ∃ i : S64x512x1024.Idx, i = (((cfgM m hO).win 3).blk t).view.emb y := ⟨_, rfl⟩
  have hi0 : (i 0).val = 2 * t.val + (y 0).val := by
    rw [hi]
    show ((cfgM m hO).win 3).index t (0 : Fin 3) * 2 + 1 * (y 0).val = _
    rw [e0]; omega
  have hi1 : (i 1).val = (y 1).val := by
    rw [hi]
    show ((cfgM m hO).win 3).index t (1 : Fin 3) * 512 + 1 * (y 1).val = _
    rw [e1]; omega
  have hi2 : (i 2).val = (y 2).val := by
    rw [hi]
    show ((cfgM m hO).win 3).index t (2 : Fin 3) * 1024 + 1 * (y 2).val = _
    rw [e2]; omega
  refine (out3_apply c (grid0.coords t) (ms0_0 m hO t) (hs0_0 m hO t) (ms0_1 m hO t) (hs0_1 m hO t) (ms0_2 m hO t)
    (hs0_2 m hO t) (ms0_3 m hO t) (hs0_3 m hO t) (iblk m hO c 0 t) (iblk m hO c 1 t) (tbl m 0) y).trans ?_
  show _ = Cert.Attn.attnArrK (V m c main_arg0) (V m c main_arg1) (V m c main_arg2)
    ((((cfgM m hO).win 3).blk t).view.emb y)
  rw [← hi]
  exact attn_point (iblk m hO c 0 t) (iblk m hO c 1 t) (word c (grid0.coords t) (y 0) (tbl m 0))
    (V m c main_arg0) (V m c main_arg1) (V m c main_arg2) y i
    (term_apply m hO c t)
    (fun l h => prot_apply m hO c t (ix3 (y 0) l h) (ix3 (i 0) l h) hi0 rfl rfl)
    (word_apply m c t (y 0) (ix1 (i 0)) hi0)
    hi1 hi2

/-! ### The blocks cover the arrays -/

/-- An index of the attention array is in point t's block iff each coordinate is in the block's range on its axis. -/
theorem mem_blk3 (hO : Ok m) (t : Fin (cfgM m hO).N) (i : S64x512x1024.Idx) :
    i ∈ (((cfgM m hO).win 3).blk t).view.set ↔ ∀ a : Fin 3,
      ((cfgM m hO).win 3).index t a * S2x512x1024.size a ≤ (i a).val
        ∧ (i a).val < ((cfgM m hO).win 3).index t a * S2x512x1024.size a + S2x512x1024.size a := by
  exact (Eq.to_iff (congrArg (fun S => i ∈ S)
    (View.set_slice_whole main_v0_1 (((cfgM m hO).win 3).rect t)))).trans Rect.mem_set_unit

/-- Protein p's rows of the attention array lie in the block of point p / 2, which writes back. -/
theorem cover3 (hO : Ok m) (i : S64x512x1024.Idx) :
    ∃ t : Fin (cfgM m hO).N, ((cfgM m hO).win 3).flush t = true ∧ i ∈ (((cfgM m hO).win 3).blk t).view.set := by
  have hi0 : (i 0).val < 64 := (i 0).isLt
  have hi1 : (i 1).val < 512 := (i 1).isLt
  have hi2 : (i 2).val < 1024 := (i 2).isLt
  have hN : (cfgM m hO).N = 32 := N_0
  obtain ⟨t, ht⟩ : ∃ t : Fin (cfgM m hO).N, t.val = (i 0).val / 2 := ⟨⟨(i 0).val / 2, by rw [hN]; omega⟩, rfl⟩
  obtain ⟨e0, e1, e2⟩ := idx_attn m hO t
  refine ⟨t, flush0_3 (adm m hO) t, ?_⟩
  rw [mem_blk3]
  intro a
  match a with
  | ⟨0, _⟩ =>
    show ((cfgM m hO).win 3).index t (0 : Fin 3) * 2 ≤ (i 0).val
      ∧ (i 0).val < ((cfgM m hO).win 3).index t (0 : Fin 3) * 2 + 2
    rw [e0, ht]; omega
  | ⟨1, _⟩ =>
    show ((cfgM m hO).win 3).index t (1 : Fin 3) * 512 ≤ (i 1).val
      ∧ (i 1).val < ((cfgM m hO).win 3).index t (1 : Fin 3) * 512 + 512
    rw [e1]; omega
  | ⟨2, _⟩ =>
    show ((cfgM m hO).win 3).index t (2 : Fin 3) * 1024 ≤ (i 2).val
      ∧ (i 2).val < ((cfgM m hO).win 3).index t (2 : Fin 3) * 1024 + 1024
    rw [e2]; omega

/-- After the run the attention array is the kernel-form attention array of the argument arrays. -/
theorem final3 (hO : Ok m) (c : Dev nD) :
    (dats m hO 0 c).arrAt 3 (cfgM m hO).N
      = Cert.Attn.attnArrK (V m c main_arg0) (V m c main_arg1) (V m c main_arg2) :=
  (dats m hO 0 c).arrAt_eq_of_cover 3 (Cert.Attn.attnArrK (V m c main_arg0) (V m c main_arg1) (V m c main_arg2))
    (fun t _ => flushed3_eq m hO c t) (cover3 m hO)

/-! ### The output window, likewise -/

/-- The kernel-form output computed from a point's blocks is the output array's entry, under the same identifications. -/
theorem out_point (X0 : Vec Ideal S512x256 .f32) (X1 : Vec Ideal S2x1024x256 .f32) (wd : BitVec 32)
    (A0 : S512x256.Idx → EReal) (A1 : S64x1024x256.Idx → EReal) (A2 : S64.Idx → BitVec 32)
    (y : S2x512x256.Idx) (i : S64x512x256.Idx)
    (h0 : ∀ x, X0 x = A0 x) (h1 : ∀ l h, X1 (ix3 (y 0) l h) = A1 (ix3 (i 0) l h)) (h2 : wd = A2 (ix1 (i 0)))
    (hi1 : (i 1).val = (y 1).val) (hi2 : (i 2).val = (y 2).val) :
    Cert.Attn.outK X0 (slabOf X1 (y 0)) wd (y 1) (y 2) = Cert.Attn.outArrK A0 A1 A2 i := by
  have e0 : X0 = A0 := funext h0
  have e1 : slabOf X1 (y 0) = Cert.Attn.slab A1 (i 0) := funext fun j => h1 (j 0) (j 1)
  have e3 : (y 1 : Fin 512) = i 1 := Fin.ext hi1.symm
  have e4 : (y 2 : Fin 256) = i 2 := Fin.ext hi2.symm
  rw [e0, e1, h2, e3, e4]
  rfl

/-- What point t writes back to the output array is block t of the kernel-form output array. -/
theorem flushed2_eq (hO : Ok m) (c : Dev nD) (t : Fin (cfgM m hO).N) :
    (dats m hO 0 c).flushed 2 t = (((cfgM m hO).win 2).blk t).view.read (Elt Ideal)
      (Cert.Attn.outArrK (V m c main_arg0) (V m c main_arg1) (V m c main_arg2)) := by
  show ((cfgM m hO).win 2).cut (grid0.coords t) ((dats m hO 0 c).after 2 t) = _
  rw [after0_2]
  unfold outsAt0
  dsimp only
  refine funext fun (y : S2x512x256.Idx) => ?_
  obtain ⟨e0, e1, e2⟩ := idx_out m hO t
  obtain ⟨i, hi⟩ : ∃ i : S64x512x256.Idx, i = (((cfgM m hO).win 2).blk t).view.emb y := ⟨_, rfl⟩
  have hi0 : (i 0).val = 2 * t.val + (y 0).val := by
    rw [hi]
    show ((cfgM m hO).win 2).index t (0 : Fin 3) * 2 + 1 * (y 0).val = _
    rw [e0]; omega
  have hi1 : (i 1).val = (y 1).val := by
    rw [hi]
    show ((cfgM m hO).win 2).index t (1 : Fin 3) * 512 + 1 * (y 1).val = _
    rw [e1]; omega
  have hi2 : (i 2).val = (y 2).val := by
    rw [hi]
    show ((cfgM m hO).win 2).index t (2 : Fin 3) * 256 + 1 * (y 2).val = _
    rw [e2]; omega
  refine (out2_apply c (grid0.coords t) (ms0_0 m hO t) (hs0_0 m hO t) (ms0_1 m hO t) (hs0_1 m hO t) (ms0_2 m hO t)
    (hs0_2 m hO t) (ms0_3 m hO t) (hs0_3 m hO t) (iblk m hO c 0 t) (iblk m hO c 1 t) (tbl m 0) y).trans ?_
  show _ = Cert.Attn.outArrK (V m c main_arg0) (V m c main_arg1) (V m c main_arg2)
    ((((cfgM m hO).win 2).blk t).view.emb y)
  rw [← hi]
  exact out_point (iblk m hO c 0 t) (iblk m hO c 1 t) (word c (grid0.coords t) (y 0) (tbl m 0))
    (V m c main_arg0) (V m c main_arg1) (V m c main_arg2) y i
    (term_apply m hO c t)
    (fun l h => prot_apply m hO c t (ix3 (y 0) l h) (ix3 (i 0) l h) hi0 rfl rfl)
    (word_apply m c t (y 0) (ix1 (i 0)) hi0)
    hi1 hi2

/-- An index of the output array is in point t's block iff each coordinate is in the block's range on its axis. -/
theorem mem_blk2 (hO : Ok m) (t : Fin (cfgM m hO).N) (i : S64x512x256.Idx) :
    i ∈ (((cfgM m hO).win 2).blk t).view.set ↔ ∀ a : Fin 3,
      ((cfgM m hO).win 2).index t a * S2x512x256.size a ≤ (i a).val
        ∧ (i a).val < ((cfgM m hO).win 2).index t a * S2x512x256.size a + S2x512x256.size a :=
  (Eq.to_iff (congrArg (fun S => i ∈ S)
    (View.set_slice_whole main_v0_0 (((cfgM m hO).win 2).rect t)))).trans Rect.mem_set_unit

/-- Protein p's rows of the output array lie in the block of point p / 2, which writes back. -/
theorem cover2 (hO : Ok m) (i : S64x512x256.Idx) :
    ∃ t : Fin (cfgM m hO).N, ((cfgM m hO).win 2).flush t = true ∧ i ∈ (((cfgM m hO).win 2).blk t).view.set := by
  have hi0 : (i 0).val < 64 := (i 0).isLt
  have hi1 : (i 1).val < 512 := (i 1).isLt
  have hi2 : (i 2).val < 256 := (i 2).isLt
  have hN : (cfgM m hO).N = 32 := N_0
  obtain ⟨t, ht⟩ : ∃ t : Fin (cfgM m hO).N, t.val = (i 0).val / 2 := ⟨⟨(i 0).val / 2, by rw [hN]; omega⟩, rfl⟩
  obtain ⟨e0, e1, e2⟩ := idx_out m hO t
  refine ⟨t, flush0_2 (adm m hO) t, ?_⟩
  rw [mem_blk2]
  intro a
  match a with
  | ⟨0, _⟩ =>
    show ((cfgM m hO).win 2).index t (0 : Fin 3) * 2 ≤ (i 0).val
      ∧ (i 0).val < ((cfgM m hO).win 2).index t (0 : Fin 3) * 2 + 2
    rw [e0, ht]; omega
  | ⟨1, _⟩ =>
    show ((cfgM m hO).win 2).index t (1 : Fin 3) * 512 ≤ (i 1).val
      ∧ (i 1).val < ((cfgM m hO).win 2).index t (1 : Fin 3) * 512 + 512
    rw [e1]; omega
  | ⟨2, _⟩ =>
    show ((cfgM m hO).win 2).index t (2 : Fin 3) * 256 ≤ (i 2).val
      ∧ (i 2).val < ((cfgM m hO).win 2).index t (2 : Fin 3) * 256 + 256
    rw [e2]; omega

/-- After the run the output array is the kernel-form output array of the argument arrays. -/
theorem final2 (hO : Ok m) (c : Dev nD) :
    (dats m hO 0 c).arrAt 2 (cfgM m hO).N
      = Cert.Attn.outArrK (V m c main_arg0) (V m c main_arg1) (V m c main_arg2) :=
  (dats m hO 0 c).arrAt_eq_of_cover 2 (Cert.Attn.outArrK (V m c main_arg0) (V m c main_arg1) (V m c main_arg2))
    (fun t _ => flushed2_eq m hO c t) (cover2 m hO)

/-! ### The run, read -/

/-- The kernel's run with both result arrays at their functions of the argument arrays, the arguments unchanged. -/
theorem run_named (hO : Ok m) : θ_run defs (onTc (τ := τ) (main (F := Ideal))) ⟨m, fun _ => 0, ρ⟩ fun r => ∀ c : Dev nD,
      r.2.mem ((c.tc : Thread nD τ).loc main_v0_0) = Cert.Attn.outArrK (m ((c.tc : Thread nD τ).loc main_arg0)) (m ((c.tc : Thread nD τ).loc main_arg1)) (m ((c.tc : Thread nD τ).loc main_arg2))
      ∧ r.2.mem ((c.tc : Thread nD τ).loc main_v0_1) = Cert.Attn.attnArrK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 2).trans (final2 m hO c),
      ((h c).1 3).trans (final3 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

end Cert.KernelIdeal.BlockValue

end
-- ==== Proof.lean ====
/-
  Masked softmax attention of 512 term rows over 64 proteins of up to 1024 positions: the kernel against its reference.

  For protein p with length word n_p, both programs form the scores s[t,l] = ∑_h term[t,h] · pro[p,l,h], put −∞ at the
  masked positions l ≥ n_p, and normalise the exponentials of the differences with the row's maximum. The reference
  divides each exponential by the row's sum and then takes the product with the protein's rows; the kernel (two proteins
  per grid step) zeroes the masked exponentials explicitly, takes one reciprocal per row and multiplies by it, for the
  output after the product with the protein's rows. Its mask fill is a large finite negative number, named −∞ here: it
  stands where the reference has −∞ and the kernel's arithmetic never needs it finite.

  On the extended reals the two agree when every entry of the two float inputs is a real and every length is at least
  one: then position 0 is unmasked, the row maximum is a real, the masked exponentials are already 0, the row sum is a
  positive real Z, e · (1/Z) = e / Z, and (∑_l e_l · pro_l) · (1/Z) = ∑_l (e_l / Z) · pro_l is an identity of reals.
  With a length below one a row is fully masked, the reference's quotient is 0/0 and the two differ: the precondition
  says "every length is at least one" for that reason.

  The pieces: the row mathematics (Softmax, Arrays over Spec), the precondition read back (PreFacts), the reference's
  two results read index by index (RefRead, over its generated run), the kernel body's vectors read at an index
  (KernelPay, KernelIdx), what the body leaves in each staging block (Pieces), and each grid point's block as its part of
  one whole-array function, the blocks covering the arrays (Final, over the generated frame). Here they are put together.
-/
import proofs.«414325_j37056977829929_3_alg».proof.Defs
import proofs.«414325_j37056977829929_3_alg».proof.Proof.Gen.Kernel
import proofs.«414325_j37056977829929_3_alg».proof.Proof.Gen.Kernel.Skeleton
import proofs.«414325_j37056977829929_3_alg».proof.Proof.Gen.Kernel.Launch
import proofs.«414325_j37056977829929_3_alg».proof.Proof.Gen.Kernel.Points
import proofs.«414325_j37056977829929_3_alg».proof.Proof.Gen.Kernel.Frame
import proofs.«414325_j37056977829929_3_alg».proof.Proof.Gen.KernelIdeal
import proofs.«414325_j37056977829929_3_alg».proof.Proof.Gen.KernelIdeal.Skeleton
import proofs.«414325_j37056977829929_3_alg».proof.Proof.Gen.KernelIdeal.Launch
import proofs.«414325_j37056977829929_3_alg».proof.Proof.Gen.KernelIdeal.Points
import proofs.«414325_j37056977829929_3_alg».proof.Proof.Gen.KernelIdeal.Frame
import proofs.«414325_j37056977829929_3_alg».proof.Proof.Gen.ReferenceIdeal
import proofs.«414325_j37056977829929_3_alg».proof.Proof.Gen.ReferenceIdeal.Run
import proofs.«414325_j37056977829929_3_alg».proof.Proof.Gen.ReferenceIdeal.Read
import proofs.«414325_j37056977829929_3_alg».proof.Proof.Gen.Pre_finite_inputs
import proofs.«414325_j37056977829929_3_alg».proof.Proof.PreFacts
import proofs.«414325_j37056977829929_3_alg».proof.Proof.Arrays
import proofs.«414325_j37056977829929_3_alg».proof.Proof.RefRead
import proofs.«414325_j37056977829929_3_alg».proof.Proof.Final
import Idealize.ShloMosaic.Adequacy
import Idealize.ShloMosaic.Init

noncomputable section

namespace Cert.Proof

open Idealize.ShloMosaic Idealize.SL.Sem
section Claims

variable [hPre : Cert.Pre_finite_inputs.Facts]

/-- The word-level kernel runs and keeps its arguments: the generated frame; its side condition on the prefetched table is
    empty, no index map reading the table. -/
theorem frame_k [Cert.Kernel.Facts] : Cert.frame_Kernel := fun m ρ _ => Cert.Kernel.Gen.frame m ρ trivial

/-- The idealized kernel likewise. -/
theorem frame_ki [Cert.KernelIdeal.Facts] : Cert.frame_KernelIdeal := fun m ρ _ => Cert.KernelIdeal.Gen.frame m ρ trivial

/-- The reference runs and keeps its arguments: its generated run with the results dropped. -/
theorem frame_ri [Cert.ReferenceIdeal.Facts] : Cert.frame_ReferenceIdeal := fun m ρ _ =>
  (θ_run Cert.ReferenceIdeal.defs _ _).mono (fun _ h c => (h c).2.2) (Cert.ReferenceIdeal.Value.run (F := Ideal) m ρ)

/-- The two named constants: the mask fill, twice in the body (once per protein of a grid step), is −∞ by the table. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end at the specification's arrays: the kernel at their kernel form, which is the reference's form under
    the precondition's three facts; the reference's results read index by index are that form of arguments that agree. -/
theorem algebraic [Cert.KernelIdeal.Facts] [Cert.ReferenceIdeal.Facts] : Cert.algebraic_KernelIdeal_ReferenceIdeal := by
  intro m ρ m' ρ' hpre hagree
  refine ⟨fun c => Cert.Attn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.BlockValue.run_named m ρ trivial)
    obtain ⟨h0, h1, h2, h3, h4⟩ := h c
    have hp := hpre c
    have f0 := Cert.PreFacts.finite_term _ _ _ hp
    have f1 := Cert.PreFacts.finite_stack _ _ _ hp
    have f2 := Cert.PreFacts.len_ge_one _ _ _ hp
    exact ⟨h0.trans (Cert.Attn.outArrK_eq _ _ _ f0 f1 f2), h1.trans (Cert.Attn.attnArrK_eq _ _ _ f0 f1 f2), h2, h3, h4⟩
  · refine (θ_run Cert.ReferenceIdeal.defs _ _).mono (fun r h c => ?_) (Cert.ReferenceIdeal.Value.run (F := Ideal) m' ρ')
    obtain ⟨h0, h1, h2, h3, h4⟩ := h c
    obtain ⟨a0, a1, a2⟩ := hagree c
    refine ⟨h0.trans ?_, h1.trans ?_, h2, h3, h4⟩
    · rw [Cert.ReferenceIdeal.Read.val_main_v20_eq, Cert.ReferenceIdeal.RefValue.out_eq, a0, a1, a2]
    · refine (Cert.ReferenceIdeal.Read.val_main_v19_eq _ _ _).trans ?_
      rw [Cert.ReferenceIdeal.RefValue.attn_eq, a0, a1, a2]

end Claims

theorem claim : Cert.Claim :=
  ⟨Cert.Kernel.Gen.facts, Cert.KernelIdeal.Gen.facts, Cert.ReferenceIdeal.Gen.facts, Cert.Pre_finite_inputs.Gen.facts,
    @frame_k Cert.Pre_finite_inputs.Gen.facts Cert.Kernel.Gen.facts,
    @frame_ki Cert.Pre_finite_inputs.Gen.facts Cert.KernelIdeal.Gen.facts,
    @frame_ri Cert.Pre_finite_inputs.Gen.facts Cert.ReferenceIdeal.Gen.facts,
    preserves,
    @algebraic Cert.Pre_finite_inputs.Gen.facts Cert.KernelIdeal.Gen.facts Cert.ReferenceIdeal.Gen.facts⟩

end Cert.Proof

end
